-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2880 : Shape := ⟨2, ![256, 2880]⟩
abbrev S2880x2880 : Shape := ⟨2, ![2880, 2880]⟩
abbrev S1x2880 : Shape := ⟨2, ![1, 2880]⟩
abbrev S_ : Shape := ⟨0, ![]⟩

class Facts : Prop where
  bcast_S_S256x2880 : S_.BroadcastsInDim S256x2880 (![] : Fin 0 → Fin S256x2880.rank)
  reducesTo_S256x2880_S_d0_1 : S256x2880.ReducesTo [0, 1] S_
  h_S_ : 0 < S_.numel
  bcast_S_S2880x2880 : S_.BroadcastsInDim S2880x2880 (![] : Fin 0 → Fin S2880x2880.rank)
  reducesTo_S2880x2880_S_d0_1 : S2880x2880.ReducesTo [0, 1] S_
  bcast_S_S1x2880 : S_.BroadcastsInDim S1x2880 (![] : Fin 0 → Fin S1x2880.rank)
  reducesTo_S1x2880_S_d0_1 : S1x2880.ReducesTo [0, 1] S_

variable [Facts]

def fn_part1 {F : FTy → Type} [FloatOps F] (main_arg4 : FVec F S1x2880 .f32) (main_arg5 : FVec F S2880x2880 .f32) (main_arg6 : FVec F S1x2880 .f32) (main_v13 : IVec S_ 1) (main_v16 : IVec S2880x2880 1) : IVec S_ 1 :=
  let main_c_5 : IVec S_ 1 := constantI S_ 1 1#1
  let main_v17 : IVec S_ 1 := (fun x v => Host.reduce IntOp.andi x v reducesTo_S2880x2880_S_d0_1 h_S_) main_v16 main_c_5
  let main_v18 : IVec S_ 1 := andi main_v13 main_v17
  let main_v19 : FVec F S1x2880 .f32 := Host.absf main_arg4
  let main_cst_6 : FVec F S_ .f32 := constant S_ .f32 0x7F800000#32
  let main_v20 : FVec F S1x2880 .f32 := broadcastInDim S1x2880 ![] bcast_S_S1x2880 main_cst_6
  let main_v21 : IVec S1x2880 1 := cmpf .olt main_v19 main_v20
  let main_c_7 : IVec S_ 1 := constantI S_ 1 1#1
  let main_v22 : IVec S_ 1 := (fun x v => Host.reduce IntOp.andi x v reducesTo_S1x2880_S_d0_1 h_S_) main_v21 main_c_7
  let main_v23 : IVec S_ 1 := andi main_v18 main_v22
  let main_v24 : FVec F S2880x2880 .f32 := Host.absf main_arg5
  let main_cst_8 : FVec F S_ .f32 := constant S_ .f32 0x7F800000#32
  let main_v25 : FVec F S2880x2880 .f32 := broadcastInDim S2880x2880 ![] bcast_S_S2880x2880 main_cst_8
  let main_v26 : IVec S2880x2880 1 := cmpf .olt main_v24 main_v25
  let main_c_9 : IVec S_ 1 := constantI S_ 1 1#1
  let main_v27 : IVec S_ 1 := (fun x v => Host.reduce IntOp.andi x v reducesTo_S2880x2880_S_d0_1 h_S_) main_v26 main_c_9
  let main_v28 : IVec S_ 1 := andi main_v23 main_v27
  let main_v29 : FVec F S1x2880 .f32 := Host.absf main_arg6
  let main_cst_10 : FVec F S_ .f32 := constant S_ .f32 0x7F800000#32
  let main_v30 : FVec F S1x2880 .f32 := broadcastInDim S1x2880 ![] bcast_S_S1x2880 main_cst_10
  let main_v31 : IVec S1x2880 1 := cmpf .olt main_v29 main_v30
  let main_c_11 : IVec S_ 1 := constantI S_ 1 1#1
  let main_v32 : IVec S_ 1 := (fun x v => Host.reduce IntOp.andi x v reducesTo_S1x2880_S_d0_1 h_S_) main_v31 main_c_11
  let main_v33 : IVec S_ 1 := andi main_v28 main_v32
  main_v33

def fn {F : FTy → Type} [FloatOps F] (main_arg0 : FVec F S256x2880 .f32) (main_arg1 : FVec F S2880x2880 .f32) (main_arg2 : FVec F S1x2880 .f32) (main_arg3 : FVec F S2880x2880 .f32) (main_arg4 : FVec F S1x2880 .f32) (main_arg5 : FVec F S2880x2880 .f32) (main_arg6 : FVec F S1x2880 .f32) : IVec S_ 1 :=
  let main_v0 : FVec F S256x2880 .f32 := Host.absf main_arg0
  let main_cst : FVec F S_ .f32 := constant S_ .f32 0x7F800000#32
  let main_v1 : FVec F S256x2880 .f32 := broadcastInDim S256x2880 ![] bcast_S_S256x2880 main_cst
  let main_v2 : IVec S256x2880 1 := cmpf .olt main_v0 main_v1
  let main_c : IVec S_ 1 := constantI S_ 1 1#1
  let main_v3 : IVec S_ 1 := (fun x v => Host.reduce IntOp.andi x v reducesTo_S256x2880_S_d0_1 h_S_) main_v2 main_c
  let main_v4 : FVec F S2880x2880 .f32 := Host.absf main_arg1
  let main_cst_0 : FVec F S_ .f32 := constant S_ .f32 0x7F800000#32
  let main_v5 : FVec F S2880x2880 .f32 := broadcastInDim S2880x2880 ![] bcast_S_S2880x2880 main_cst_0
  let main_v6 : IVec S2880x2880 1 := cmpf .olt main_v4 main_v5
  let main_c_1 : IVec S_ 1 := constantI S_ 1 1#1
  let main_v7 : IVec S_ 1 := (fun x v => Host.reduce IntOp.andi x v reducesTo_S2880x2880_S_d0_1 h_S_) main_v6 main_c_1
  let main_v8 : IVec S_ 1 := andi main_v3 main_v7
  let main_v9 : FVec F S1x2880 .f32 := Host.absf main_arg2
  let main_cst_2 : FVec F S_ .f32 := constant S_ .f32 0x7F800000#32
  let main_v10 : FVec F S1x2880 .f32 := broadcastInDim S1x2880 ![] bcast_S_S1x2880 main_cst_2
  let main_v11 : IVec S1x2880 1 := cmpf .olt main_v9 main_v10
  let main_c_3 : IVec S_ 1 := constantI S_ 1 1#1
  let main_v12 : IVec S_ 1 := (fun x v => Host.reduce IntOp.andi x v reducesTo_S1x2880_S_d0_1 h_S_) main_v11 main_c_3
  let main_v13 : IVec S_ 1 := andi main_v8 main_v12
  let main_v14 : FVec F S2880x2880 .f32 := Host.absf main_arg3
  let main_cst_4 : FVec F S_ .f32 := constant S_ .f32 0x7F800000#32
  let main_v15 : FVec F S2880x2880 .f32 := broadcastInDim S2880x2880 ![] bcast_S_S2880x2880 main_cst_4
  let main_v16 : IVec S2880x2880 1 := cmpf .olt main_v14 main_v15
  fn_part1 (F := F) main_arg4 main_arg5 main_arg6 main_v13 main_v16
-- ==== Kernel.lean ====
abbrev S256x2880 : Shape := ⟨2, ![256, 2880]⟩
abbrev S2880x2880 : Shape := ⟨2, ![2880, 2880]⟩
abbrev S1x2880 : Shape := ⟨2, ![1, 2880]⟩
abbrev S2880x256 : Shape := ⟨2, ![2880, 256]⟩
abbrev S2880x1 : Shape := ⟨2, ![2880, 1]⟩
abbrev S480x256 : Shape := ⟨2, ![480, 256]⟩
abbrev S480x2880 : Shape := ⟨2, ![480, 2880]⟩
abbrev S360x256 : Shape := ⟨2, ![360, 256]⟩
abbrev S360x2880 : Shape := ⟨2, ![360, 2880]⟩

abbrev nBuf : Space → Nat
  | .hbm => 12
  | .vmem => 17
  | .smem => 0
  | _ => 0

abbrev bufTy : (tb : Table) → Fin (tcTables nBuf tb) → BufTy
  | .hbm, ⟨0, _⟩ => ⟨S256x2880, .f32⟩
  | .hbm, ⟨1, _⟩ => ⟨S2880x2880, .f32⟩
  | .hbm, ⟨2, _⟩ => ⟨S1x2880, .f32⟩
  | .hbm, ⟨3, _⟩ => ⟨S2880x2880, .f32⟩
  | .hbm, ⟨4, _⟩ => ⟨S1x2880, .f32⟩
  | .hbm, ⟨5, _⟩ => ⟨S2880x2880, .f32⟩
  | .hbm, ⟨6, _⟩ => ⟨S1x2880, .f32⟩
  | .hbm, ⟨7, _⟩ => ⟨S2880x256, .f32⟩
  | .hbm, ⟨8, _⟩ => ⟨S2880x1, .f32⟩
  | .hbm, ⟨9, _⟩ => ⟨S2880x1, .f32⟩
  | .hbm, ⟨10, _⟩ => ⟨S2880x256, .f32⟩
  | .hbm, ⟨11, _⟩ => ⟨S256x2880, .f32⟩
  | .local _ .vmem, ⟨0, _⟩ => ⟨S480x256, .f32⟩
  | .local _ .vmem, ⟨1, _⟩ => ⟨S480x256, .f32⟩
  | .local _ .vmem, ⟨2, _⟩ => ⟨S480x2880, .f32⟩
  | .local _ .vmem, ⟨3, _⟩ => ⟨S480x2880, .f32⟩
  | .local _ .vmem, ⟨4, _⟩ => ⟨S480x2880, .f32⟩
  | .local _ .vmem, ⟨5, _⟩ => ⟨S480x2880, .f32⟩
  | .local _ .vmem, ⟨6, _⟩ => ⟨S2880x1, .f32⟩
  | .local _ .vmem, ⟨7, _⟩ => ⟨S2880x1, .f32⟩
  | .local _ .vmem, ⟨8, _⟩ => ⟨S2880x256, .f32⟩
  | .local _ .vmem, ⟨9, _⟩ => ⟨S2880x256, .f32⟩
  | .local _ .vmem, ⟨10, _⟩ => ⟨S2880x256, .f32⟩
  | .local _ .vmem, ⟨11, _⟩ => ⟨S360x256, .f32⟩
  | .local _ .vmem, ⟨12, _⟩ => ⟨S360x256, .f32⟩
  | .local _ .vmem, ⟨13, _⟩ => ⟨S360x2880, .f32⟩
  | .local _ .vmem, ⟨14, _⟩ => ⟨S360x2880, .f32⟩
  | .local _ .vmem, ⟨15, _⟩ => ⟨S1x2880, .f32⟩
  | .local _ .vmem, ⟨16, _⟩ => ⟨S256x2880, .f32⟩
  | _, _ => ⟨S256x2880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v12 : BitVec 1 := Scalar.cmpi .eq arg0 c5_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S480x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x2880 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S480x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2880x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2880x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2880x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k1_cond2 (i : grid1.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S360x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S360x2880 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2880 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2880 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  transposes_S256x2880_S2880x256_1_0 : S256x2880.Transposes [1, 0] S2880x256
  transposes_S1x2880_S2880x1_1_0 : S1x2880.Transposes [1, 0] S2880x1
  inb_S480x256_S480x256_0_0 : ∀ a, (![0, 0] : Fin 2 → Nat) a + S480x256.size a ≤ S480x256.size a
  h_S480x256 : 0 < S480x256.numel
  shapeCasts_S480x256_S480x256 : S480x256.ShapeCasts S480x256
  inb_S480x2880_S480x2880_0_0 : ∀ a, (![0, 0] : Fin 2 → Nat) a + S480x2880.size a ≤ S480x2880.size a
  h_S480x2880 : 0 < S480x2880.numel
  inb_S2880x256_S2880x256_0_0 : ∀ a, (![0, 0] : Fin 2 → Nat) a + S2880x256.size a ≤ S2880x256.size a
  h_S2880x256 : 0 < S2880x256.numel
  shapeCasts_S2880x256_S2880x256 : S2880x256.ShapeCasts S2880x256
  inb_S2880x1_S2880x1_0_0 : ∀ a, (![0, 0] : Fin 2 → Nat) a + S2880x1.size a ≤ S2880x1.size a
  h_S2880x1 : 0 < S2880x1.numel
  shapeCasts_S2880x1_S2880x1 : S2880x1.ShapeCasts S2880x1
  broadcasts_S2880x1_S2880x256 : S2880x1.Broadcasts S2880x256
  inb_S360x256_S360x256_0_0 : ∀ a, (![0, 0] : Fin 2 → Nat) a + S360x256.size a ≤ S360x256.size a
  h_S360x256 : 0 < S360x256.numel
  shapeCasts_S360x256_S360x256 : S360x256.ShapeCasts S360x256
  inb_S360x2880_S360x2880_0_0 : ∀ a, (![0, 0] : Fin 2 → Nat) a + S360x2880.size a ≤ S360x2880.size a
  h_S360x2880 : 0 < S360x2880.numel
  inb_S1x2880_S1x2880_0_0 : ∀ a, (![0, 0] : Fin 2 → Nat) a + S1x2880.size a ≤ S1x2880.size a
  h_S1x2880 : 0 < S1x2880.numel
  broadcasts_S1x2880_S256x2880 : S1x2880.Broadcasts S256x2880
  inb_S256x2880_S256x2880_0_0 : ∀ a, (![0, 0] : Fin 2 → Nat) a + S256x2880.size a ≤ S256x2880.size a
  h_S256x2880 : 0 < S256x2880.numel
  shapeCasts_S256x2880_S256x2880 : S256x2880.ShapeCasts S256x2880
  dot_S480x2880_S480x256_S2880x256_0_0_1_1_n_n_wf : DotDims.WF S480x2880 S480x256 S2880x256 [0] [0] [1] [1] [] []
  dot_S360x256_S360x2880_S256x2880_0_0_1_1_n_n_wf : DotDims.WF S360x256 S360x2880 S256x2880 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x256.size a ≤ S2880x256.size a
  hwx0_0 : ∀ i : grid0.Coords, EltTy.bits .f32 = 32 ∨ (Rect.block (s := S2880x256) S480x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x2880.size a ≤ S2880x2880.size a
  hwx0_1 : ∀ i : grid0.Coords, EltTy.bits .f32 = 32 ∨ (Rect.block (s := S2880x2880) S480x2880.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S480x2880.size a ≤ S2880x2880.size a
  hwx0_2 : ∀ i : grid0.Coords, EltTy.bits .f32 = 32 ∨ (Rect.block (s := S2880x2880) S480x2880.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2880x1.size a ≤ S2880x1.size a
  hwx0_3 : ∀ i : grid0.Coords, EltTy.bits .f32 = 32 ∨ (Rect.block (s := S2880x1) S2880x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2880x1.size a ≤ S2880x1.size a
  hwx0_4 : ∀ i : grid0.Coords, EltTy.bits .f32 = 32 ∨ (Rect.block (s := S2880x1) S2880x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2880x256.size a ≤ S2880x256.size a
  hwx0_5 : ∀ i : grid0.Coords, EltTy.bits .f32 = 32 ∨ (Rect.block (s := S2880x256) S2880x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S360x256.size a ≤ S2880x256.size a
  hwx1_0 : ∀ i : grid1.Coords, EltTy.bits .f32 = 32 ∨ (Rect.block (s := S2880x256) S360x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S360x2880.size a ≤ S2880x2880.size a
  hwx1_1 : ∀ i : grid1.Coords, EltTy.bits .f32 = 32 ∨ (Rect.block (s := S2880x2880) S360x2880.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2880.size a ≤ S1x2880.size a
  hwx1_2 : ∀ i : grid1.Coords, EltTy.bits .f32 = 32 ∨ (Rect.block (s := S1x2880) S1x2880.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2880.size a ≤ S256x2880.size a
  hwx1_3 : ∀ i : grid1.Coords, EltTy.bits .f32 = 32 ∨ (Rect.block (s := S256x2880) S256x2880.size (cc1_transform_3 i) (hinb1_3 i)).WholeWords (EltTy.packing .f32)

variable [Facts₀]

def dot_S480x2880_S480x256_S2880x256_0_0_1_1_n_n : DotDims S480x2880 S480x256 S2880x256 where
  lhsContracting := [0]
  rhsContracting := [0]
  lhsNonContracting := [1]
  rhsNonContracting := [1]
  lhsBatch := []
  rhsBatch := []
  wf := dot_S480x2880_S480x256_S2880x256_0_0_1_1_n_n_wf
def dot_S360x256_S360x2880_S256x2880_0_0_1_1_n_n : DotDims S360x256 S360x2880 S256x2880 where
  lhsContracting := [0]
  rhsContracting := [0]
  lhsNonContracting := [1]
  rhsNonContracting := [1]
  lhsBatch := []
  rhsBatch := []
  wf := dot_S360x256_S360x2880_S256x2880_0_0_1_1_n_n_wf

abbrev win0_0 : Pipeline.Window sig grid0 :=
  Pipeline.Window.ofSpec (Memref.whole main_v0) S480x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S480x2880.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S480x2880.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2880x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2880x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2880x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

abbrev win1_0 : Pipeline.Window sig grid1 :=
  Pipeline.Window.ofSpec (Memref.whole main_v3) S360x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S360x2880.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x2880.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x2880.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S256x2880 : Shape := ⟨2, ![256, 2880]⟩
abbrev S2880x2880 : Shape := ⟨2, ![2880, 2880]⟩
abbrev S1x2880 : Shape := ⟨2, ![1, 2880]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S256x2880, .f32⟩
  | .hbm, ⟨1, _⟩ => ⟨S2880x2880, .f32⟩
  | .hbm, ⟨2, _⟩ => ⟨S1x2880, .f32⟩
  | .hbm, ⟨3, _⟩ => ⟨S2880x2880, .f32⟩
  | .hbm, ⟨4, _⟩ => ⟨S1x2880, .f32⟩
  | .hbm, ⟨5, _⟩ => ⟨S2880x2880, .f32⟩
  | .hbm, ⟨6, _⟩ => ⟨S1x2880, .f32⟩
  | .hbm, ⟨7, _⟩ => ⟨S256x2880, .f32⟩
  | .hbm, ⟨8, _⟩ => ⟨S256x2880, .f32⟩
  | .hbm, ⟨9, _⟩ => ⟨S256x2880, .f32⟩
  | .hbm, ⟨10, _⟩ => ⟨S256x2880, .f32⟩
  | .hbm, ⟨11, _⟩ => ⟨S256x2880, .f32⟩
  | .hbm, ⟨12, _⟩ => ⟨S256x2880, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x2880, .f32⟩
  | .hbm, ⟨17, _⟩ => ⟨S256x2880, .f32⟩
  | .hbm, ⟨18, _⟩ => ⟨S_, .f32⟩
  | .hbm, ⟨19, _⟩ => ⟨S256x2880, .f32⟩
  | .hbm, ⟨20, _⟩ => ⟨S256x2880, .f32⟩
  | .hbm, ⟨21, _⟩ => ⟨S_, .f32⟩
  | .hbm, ⟨22, _⟩ => ⟨S256x2880, .f32⟩
  | .hbm, ⟨23, _⟩ => ⟨S256x2880, .f32⟩
  | .hbm, ⟨24, _⟩ => ⟨S_, .f32⟩
  | .hbm, ⟨25, _⟩ => ⟨S256x2880, .f32⟩
  | .hbm, ⟨26, _⟩ => ⟨S256x2880, .f32⟩
  | .hbm, ⟨27, _⟩ => ⟨S256x2880, .f32⟩
  | .hbm, ⟨28, _⟩ => ⟨S_, .f32⟩
  | .hbm, ⟨29, _⟩ => ⟨S256x2880, .f32⟩
  | .hbm, ⟨30, _⟩ => ⟨S256x2880, .f32⟩
  | .hbm, ⟨31, _⟩ => ⟨S_, .f32⟩
  | .hbm, ⟨32, _⟩ => ⟨S256x2880, .f32⟩
  | .hbm, ⟨33, _⟩ => ⟨S256x2880, .f32⟩
  | .hbm, ⟨34, _⟩ => ⟨S256x2880, .f32⟩
  | .hbm, ⟨35, _⟩ => ⟨S_, .f32⟩
  | .hbm, ⟨36, _⟩ => ⟨S256x2880, .f32⟩
  | .hbm, ⟨37, _⟩ => ⟨S256x2880, .f32⟩
  | .hbm, ⟨38, _⟩ => ⟨S256x2880, .f32⟩
  | .hbm, ⟨39, _⟩ => ⟨S256x2880, .f32⟩
  | .hbm, ⟨40, _⟩ => ⟨S256x2880, .f32⟩
  | .hbm, ⟨41, _⟩ => ⟨S256x2880, .f32⟩
  | _, _ => ⟨S256x2880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  bcast_S1x2880_S256x2880_0_1 : S1x2880.BroadcastsInDim S256x2880 (![0, 1] : Fin 2 → Fin S256x2880.rank)
  bcast_S_S256x2880 : S_.BroadcastsInDim S256x2880 (![] : Fin 0 → Fin S256x2880.rank)
  dot_S256x2880_S2880x2880_S256x2880_1_0_0_1_n_n_wf : DotDims.WF S256x2880 S2880x2880 S256x2880 [1] [0] [0] [1] [] []

variable [Facts₀]

def dot_S256x2880_S2880x2880_S256x2880_1_0_0_1_n_n : DotDims S256x2880 S2880x2880 S256x2880 where
  lhsContracting := [1]
  rhsContracting := [0]
  lhsNonContracting := [0]
  rhsNonContracting := [1]
  lhsBatch := []
  rhsBatch := []
  wf := dot_S256x2880_S2880x2880_S256x2880_1_0_0_1_n_n_wf

class Facts : Prop extends Facts₀ where

variable [Facts]
-- ==== Proof.BitsStage2Body.lean ====
/-
  The second kernel's body on whole staging buffers, one statement per control case.

  At the first grid point the body stores the slab product plus the broadcast bias row into the output block,
  whatever the block held; at every later point it stores what the block held plus the slab product. The
  input blocks come back as they were.
-/
import proofs.«114340_g74105365725337_cont_9to1c4b_446_3_alg».proof.Proof.Gen.Kernel.Launch
import proofs.«114340_g74105365725337_cont_9to1c4b_446_3_alg».proof.Proof.Gen.Kernel.Skeleton
import proofs.«114340_g74105365725337_cont_9to1c4b_446_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-block rectangle's offsets are zero. -/
theorem zero_off2 : (![0, 0] : Fin 2 → Nat) = fun _ => 0 := by
  funext a; match a with | ⟨0, _⟩ => rfl | ⟨1, _⟩ => rfl

set_option maxHeartbeats 1000000 in
/-- First grid point: the output block receives the product of the two slabs plus the bias row. -/
theorem stage2_first (c : Dev nD) (i : grid1.Coords)
    (arg1 : Memref sig .tc .vmem S360x256 .f32) (harg1 : arg1.IsWhole) (arg2 : Memref sig .tc .vmem S360x2880 .f32) (harg2 : arg2.IsWhole)
    (arg3 : Memref sig .tc .vmem S1x2880 .f32) (harg3 : arg3.IsWhole) (arg4 : Memref sig .tc .vmem S256x2880 .f32) (harg4 : arg4.IsWhole)
    (hc1 : k1_cond1 i = 1#1) (hc2 : ¬ k1_cond2 i = 1#1)
    (x0 : Vec F S360x256 .f32) (x1 : Vec F S360x2880 .f32) (x2 : Vec F S1x2880 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2)) -∗ K ⟨⟩))
      ⊢ wp frame (wpE (defs₀ (F := F)) Variants.none c none) E (cc1__stage2_body i arg1 harg1 arg2 harg2 arg3 harg3 arg4 harg4) K := by
  simp only [cc1__stage2_body_eq_skeleton]; unfold cc1__stage2_body_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_eq_canon _ _ _ (fun y => ⟨_, List.mem_singleton_self _, View.mem_set_unit_zero zero_off2 Facts₀.inb_S256x2880_S256x2880_0_0 y⟩),
    View.canon_unit_zero zero_off2]
  simp only [View.readAt_eq_ld, harg1.read_unread, harg2.read_unread, harg3.read_unread,
    View.ld_unit_zero (S := S360x256) zero_off2, View.ld_unit_zero (S := S360x2880) zero_off2,
    View.ld_unit_zero (S := S1x2880) zero_off2]

set_option maxHeartbeats 1000000 in
/-- Every later grid point: the output block receives what it held plus the product of the two slabs. -/
theorem stage2_later (c : Dev nD) (i : grid1.Coords)
    (arg1 : Memref sig .tc .vmem S360x256 .f32) (harg1 : arg1.IsWhole) (arg2 : Memref sig .tc .vmem S360x2880 .f32) (harg2 : arg2.IsWhole)
    (arg3 : Memref sig .tc .vmem S1x2880 .f32) (harg3 : arg3.IsWhole) (arg4 : Memref sig .tc .vmem S256x2880 .f32) (harg4 : arg4.IsWhole)
    (hc1 : ¬ k1_cond1 i = 1#1) (hc2 : k1_cond2 i = 1#1)
    (x0 : Vec F S360x256 .f32) (x1 : Vec F S360x2880 .f32) (x2 : Vec F S1x2880 .f32) (xo : Vec F S256x2880 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 xo)) -∗ K ⟨⟩))
      ⊢ wp frame (wpE (defs₀ (F := F)) Variants.none c none) E (cc1__stage2_body i arg1 harg1 arg2 harg2 arg3 harg3 arg4 harg4) K := by
  simp only [cc1__stage2_body_eq_skeleton]; unfold cc1__stage2_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  iexists _; isplitr
  swap; · iexact H3
  ipureintro
  rw [View.read_writes_eq_canon _ _ _ (fun y => ⟨_, List.mem_singleton_self _, View.mem_set_unit_zero zero_off2 Facts₀.inb_S256x2880_S256x2880_0_0 y⟩),
    View.canon_unit_zero zero_off2]
  simp only [View.readAt_eq_ld, harg1.read_unread, harg2.read_unread, harg4.read_unread,
    View.ld_unit_zero (S := S360x256) zero_off2, View.ld_unit_zero (S := S360x2880) zero_off2,
    View.ld_unit_zero (S := S256x2880) zero_off2]

end Cert.Kernel.Mlp

end
-- ==== Proof.BitsStage1Body.lean ====
/-
  The first kernel's body on whole staging buffers, one statement per control case.

  Every grid point forms the two slab products (gate and up weights against the activation slab). The first
  point stores them into the two accumulators; every later point adds them to what the accumulators held; the
  last point, after that update, also stores the gate of the two accumulators and the bias columns into the
  output block. At the other points the output block is handed back untouched. The input blocks come back as
  they were.
-/
import proofs.«114340_g74105365725337_cont_9to1c4b_446_3_alg».proof.Proof.BitsStage2Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition, from the grid coordinates: the point is the first. -/
abbrev isFirst0 (i : grid0.Coords) : Prop :=
  (Scalar.cmpi .ne (Scalar.extui (Scalar.cmpi .eq (BitVec.ofNat 32 (i 0).val) 0#32)) 0#32) = 1#1
/-- The second: the point is not the first. -/
abbrev isLater0 (i : grid0.Coords) : Prop :=
  (Scalar.cmpi .ne (Scalar.extui (Scalar.cmpi .sgt (BitVec.ofNat 32 (i 0).val) 0#32)) 0#32) = 1#1
/-- The third: the point is the last. -/
abbrev isLast0 (i : grid0.Coords) : Prop := k0_cond3 i = 1#1

set_option maxHeartbeats 2000000 in
/-- First grid point: the accumulators receive the two slab products; the output block is untouched. -/
theorem stage1_first (c : Dev nD) (i : grid0.Coords)
    (arg1 : Memref sig .tc .vmem S480x256 .f32) (harg1 : arg1.IsWhole) (arg2 : Memref sig .tc .vmem S480x2880 .f32) (harg2 : arg2.IsWhole)
    (arg3 : Memref sig .tc .vmem S480x2880 .f32) (harg3 : arg3.IsWhole) (arg4 : Memref sig .tc .vmem S2880x1 .f32) (harg4 : arg4.IsWhole)
    (arg5 : Memref sig .tc .vmem S2880x1 .f32) (harg5 : arg5.IsWhole) (arg6 : Memref sig .tc .vmem S2880x256 .f32) (harg6 : arg6.IsWhole)
    (arg7 : Memref sig .tc .vmem S2880x256 .f32) (harg7 : arg7.IsWhole) (arg8 : Memref sig .tc .vmem S2880x256 .f32) (harg8 : arg8.IsWhole)
    (hc1 : isFirst0 i) (hc2 : ¬ isLater0 i) (hc3 : ¬ isLast0 i)
    (x0 : Vec F S480x256 .f32) (x1 x2 : Vec F S480x2880 .f32) (x3 x4 : Vec F S2880x1 .f32) (xi : Vec F S2880x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
            ∗ owns (c : Thread nD τ) arg7 fullShare (k0_pay4 x0 x1) ∗ owns (c : Thread nD τ) arg8 fullShare (k0_pay5 x0 x2)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  ·
    iexists _; isplitr
    swap; · iexact H6
    ipureintro
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]

  iexists _; isplitr
  swap; · iexact H7
  ipureintro
  rw [View.read_writes_eq_canon _ _ _ (fun y => ⟨_, List.mem_singleton_self _, View.mem_set_unit_zero zero_off2 Facts₀.inb_S2880x256_S2880x256_0_0 y⟩),
    View.canon_unit_zero zero_off2]
  simp only [View.readAt_eq_ld, harg1.read_unread, harg2.read_unread, harg3.read_unread, harg4.read_unread, harg5.read_unread,
    View.ld_unit_zero (S := S480x256) zero_off2, View.ld_unit_zero (S := S480x2880) zero_off2,
    View.ld_unit_zero (S := S2880x1) zero_off2, View.ld_unit_zero (S := S2880x256) zero_off2,
    View.readCov_unit_zero (S := S2880x256) _ zero_off2]

set_option maxHeartbeats 2000000 in
/-- A middle grid point: each accumulator receives what it held plus its slab product; the output block is untouched. -/
theorem stage1_middle (c : Dev nD) (i : grid0.Coords)
    (arg1 : Memref sig .tc .vmem S480x256 .f32) (harg1 : arg1.IsWhole) (arg2 : Memref sig .tc .vmem S480x2880 .f32) (harg2 : arg2.IsWhole)
    (arg3 : Memref sig .tc .vmem S480x2880 .f32) (harg3 : arg3.IsWhole) (arg4 : Memref sig .tc .vmem S2880x1 .f32) (harg4 : arg4.IsWhole)
    (arg5 : Memref sig .tc .vmem S2880x1 .f32) (harg5 : arg5.IsWhole) (arg6 : Memref sig .tc .vmem S2880x256 .f32) (harg6 : arg6.IsWhole)
    (arg7 : Memref sig .tc .vmem S2880x256 .f32) (harg7 : arg7.IsWhole) (arg8 : Memref sig .tc .vmem S2880x256 .f32) (harg8 : arg8.IsWhole)
    (hc1 : ¬ isFirst0 i) (hc2 : isLater0 i) (hc3 : ¬ isLast0 i)
    (x0 : Vec F S480x256 .f32) (x1 x2 : Vec F S480x2880 .f32) (x3 x4 : Vec F S2880x1 .f32) (xi a7 a8 : Vec F S2880x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
        ∗ owns (c : Thread nD τ) arg7 fullShare a7 ∗ owns (c : Thread nD τ) arg8 fullShare a8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
            ∗ owns (c : Thread nD τ) arg7 fullShare (k0_pay6 x0 x1 a7) ∗ owns (c : Thread nD τ) arg8 fullShare (k0_pay7 x0 x2 a8)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg7.eq_unread hf6; obtain rfl := harg8.eq_unread hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  ·
    iexists _; isplitr
    swap; · iexact H6
    ipureintro
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread, harg7.read_unread, harg8.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]

  iexists _; isplitr
  swap; · iexact H7
  ipureintro
  rw [View.read_writes_eq_canon _ _ _ (fun y => ⟨_, List.mem_singleton_self _, View.mem_set_unit_zero zero_off2 Facts₀.inb_S2880x256_S2880x256_0_0 y⟩),
    View.canon_unit_zero zero_off2]
  simp only [View.readAt_eq_ld, harg1.read_unread, harg2.read_unread, harg3.read_unread, harg4.read_unread, harg5.read_unread, harg7.read_unread, harg8.read_unread,
    View.ld_unit_zero (S := S480x256) zero_off2, View.ld_unit_zero (S := S480x2880) zero_off2,
    View.ld_unit_zero (S := S2880x1) zero_off2, View.ld_unit_zero (S := S2880x256) zero_off2,
    View.readCov_unit_zero (S := S2880x256) _ zero_off2]

set_option maxHeartbeats 4000000 in
/-- The last grid point: the accumulators are updated as at a middle point, and the output block receives the
    gate of the updated accumulators and the two bias columns. -/
theorem stage1_last (c : Dev nD) (i : grid0.Coords)
    (arg1 : Memref sig .tc .vmem S480x256 .f32) (harg1 : arg1.IsWhole) (arg2 : Memref sig .tc .vmem S480x2880 .f32) (harg2 : arg2.IsWhole)
    (arg3 : Memref sig .tc .vmem S480x2880 .f32) (harg3 : arg3.IsWhole) (arg4 : Memref sig .tc .vmem S2880x1 .f32) (harg4 : arg4.IsWhole)
    (arg5 : Memref sig .tc .vmem S2880x1 .f32) (harg5 : arg5.IsWhole) (arg6 : Memref sig .tc .vmem S2880x256 .f32) (harg6 : arg6.IsWhole)
    (arg7 : Memref sig .tc .vmem S2880x256 .f32) (harg7 : arg7.IsWhole) (arg8 : Memref sig .tc .vmem S2880x256 .f32) (harg8 : arg8.IsWhole)
    (hc1 : ¬ isFirst0 i) (hc2 : isLater0 i) (hc3 : isLast0 i)
    (x0 : Vec F S480x256 .f32) (x1 x2 : Vec F S480x2880 .f32) (x3 x4 : Vec F S2880x1 .f32) (a7 a8 : Vec F S2880x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ owns (c : Thread nD τ) arg7 fullShare a7 ∗ owns (c : Thread nD τ) arg8 fullShare a8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay8 (k0_pay6 x0 x1 a7) x3 (k0_pay7 x0 x2 a8) x4)
            ∗ owns (c : Thread nD τ) arg7 fullShare (k0_pay6 x0 x1 a7) ∗ owns (c : Thread nD τ) arg8 fullShare (k0_pay7 x0 x2 a8)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hf6; obtain rfl := harg8.eq_unread hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  ·
    iexists _; isplitr
    swap; · iexact H5
    ipureintro
    sl_unfold_words
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread,
      harg7.read_unread, harg8.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]
  isplitl [H6]
  ·
    iexists _; isplitr
    swap; · iexact H6
    ipureintro
    sl_unfold_words
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread,
      harg7.read_unread, harg8.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]
  iexists _; isplitr
  swap; · iexact H7
  ipureintro
  sl_unfold_words
  rw [View.read_writes_eq_canon _ _ _ (fun y => ⟨_, List.mem_singleton_self _, View.mem_set_unit_zero zero_off2 Facts₀.inb_S2880x256_S2880x256_0_0 y⟩),
    View.canon_unit_zero zero_off2]
  simp only [View.readAt_eq_ld, harg1.read_unread, harg2.read_unread, harg3.read_unread, harg4.read_unread, harg5.read_unread,
    harg7.read_unread, harg8.read_unread,
    View.ld_unit_zero (S := S480x256) zero_off2, View.ld_unit_zero (S := S480x2880) zero_off2,
    View.ld_unit_zero (S := S2880x1) zero_off2, View.ld_unit_zero (S := S2880x256) zero_off2,
    View.readCov_unit_zero (S := S2880x256) _ zero_off2]

end Cert.Kernel.Mlp

end
-- ==== Proof.BitsFolds.lean ====
/-
  The two kernels' accumulations as pure recursions over the grid, for any family of input blocks.

  Stage 1 keeps two accumulators between grid points: at point 0 each is the product of that point's weight
  slab (contracted over its 480 rows) with the activation slab; at every later point the product of the point's
  slabs is added to what the point before left. At the last point the two accumulators, the two bias columns
  and the clipped-SiLU gate give the stage's output block. Stage 2 accumulates in its output block: the first
  point stores its product plus the bias row, every later point adds its product to what the block held.
  The arithmetic is the skeleton's payloads; nothing here is specific to a float instance.
-/
import proofs.«114340_g74105365725337_cont_9to1c4b_446_3_alg».proof.Proof.Gen.Kernel.Skeleton

noncomputable section

namespace Cert.Kernel.Mlp

open Idealize.ShloMosaic Cert.Kernel Cert.Kernel.Gen

variable {F : FTy → Type} [FloatOps F]

/-- The two accumulators of stage 1 after grid point `n`, from the activation slabs `xb` and the two weight
    slab families `gw`, `uw`: a product at point 0, the running sum afterwards. -/
def s1acc (xb : ℕ → Vec F S480x256 .f32) (gw uw : ℕ → Vec F S480x2880 .f32) :
    ℕ → Vec F S2880x256 .f32 × Vec F S2880x256 .f32
  | 0 => (k0_pay4 (xb 0) (gw 0), k0_pay5 (xb 0) (uw 0))
  | n + 1 => (k0_pay6 (xb (n + 1)) (gw (n + 1)) (s1acc xb gw uw n).1,
              k0_pay7 (xb (n + 1)) (uw (n + 1)) (s1acc xb gw uw n).2)

theorem s1acc_zero (xb : ℕ → Vec F S480x256 .f32) (gw uw : ℕ → Vec F S480x2880 .f32) :
    s1acc xb gw uw 0 = (k0_pay4 (xb 0) (gw 0), k0_pay5 (xb 0) (uw 0)) := rfl

theorem s1acc_succ (xb : ℕ → Vec F S480x256 .f32) (gw uw : ℕ → Vec F S480x2880 .f32) (n : ℕ) :
    s1acc xb gw uw (n + 1) = (k0_pay6 (xb (n + 1)) (gw (n + 1)) (s1acc xb gw uw n).1,
      k0_pay7 (xb (n + 1)) (uw (n + 1)) (s1acc xb gw uw n).2) := rfl

/-- What stage 1 stores into its output block at the last grid point: the gate of the two finished
    accumulators and the two bias columns. -/
def s1out (xb : ℕ → Vec F S480x256 .f32) (gw uw : ℕ → Vec F S480x2880 .f32)
    (gbias ubias : Vec F S2880x1 .f32) : Vec F S2880x256 .f32 :=
  k0_pay8 (s1acc xb gw uw 5).1 gbias (s1acc xb gw uw 5).2 ubias

/-- Stage 2's output block after grid point `n`, from the slabs `hb` of the hidden activations, the slabs `dw`
    of the down-projection weights and the bias row. -/
def s2acc (hb : ℕ → Vec F S360x256 .f32) (dw : ℕ → Vec F S360x2880 .f32) (bias : Vec F S1x2880 .f32) :
    ℕ → Vec F S256x2880 .f32
  | 0 => k1_pay2 (hb 0) (dw 0) bias
  | n + 1 => k1_pay3 (hb (n + 1)) (dw (n + 1)) (s2acc hb dw bias n)

theorem s2acc_zero (hb : ℕ → Vec F S360x256 .f32) (dw : ℕ → Vec F S360x2880 .f32) (bias : Vec F S1x2880 .f32) :
    s2acc hb dw bias 0 = k1_pay2 (hb 0) (dw 0) bias := rfl

theorem s2acc_succ (hb : ℕ → Vec F S360x256 .f32) (dw : ℕ → Vec F S360x2880 .f32) (bias : Vec F S1x2880 .f32) (n : ℕ) :
    s2acc hb dw bias (n + 1) = k1_pay3 (hb (n + 1)) (dw (n + 1)) (s2acc hb dw bias n) := rfl

end Cert.Kernel.Mlp

end
-- ==== Proof.BitsStage1Region.lean ====
/-
  The first pallas_call as a pipeline region, at any contents `V` of the core's buffers at its entry.

  Its five input windows hold their blocks of the arrays at every grid point. Two scratch buffers carry the
  gate and up accumulators from point to point — the fold `s1acc` over the points' slabs —, so the region's
  invariant names their contents after every point. The output window keeps one block for the whole grid; the
  body stores into it at the last point only (the gate of the finished accumulators and the bias columns), and
  only then is it written back; at the other points its buffer is handed back as found.
-/
import proofs.«114340_g74105365725337_cont_9to1c4b_446_3_alg».proof.Proof.BitsStage1Body
import proofs.«114340_g74105365725337_cont_9to1c4b_446_3_alg».proof.Proof.BitsFolds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the activation slabs, -/
theorem held0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the gate weight slabs, -/
theorem held0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- the up weight slabs, -/
theorem held0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- the gate bias column, -/
theorem held0_3 {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- and the up bias column. -/
theorem held0_4 {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the output window is idle -/

/-- The body's first condition holds exactly at the first grid point, -/
theorem first0_iff : ∀ t : Fin cfg0.N, isFirst0 (grid0.coords t) ↔ t.val = 0 :=
  (by decide +kernel : ∀ t : Fin grid0.N, isFirst0 (grid0.coords t) ↔ t.val = 0)
/-- its second at the later points, -/
theorem later0_iff : ∀ t : Fin cfg0.N, isLater0 (grid0.coords t) ↔ t.val ≠ 0 :=
  (by decide +kernel : ∀ t : Fin grid0.N, isLater0 (grid0.coords t) ↔ t.val ≠ 0)
/-- its third at the last point. -/
theorem last0_iff : ∀ t : Fin cfg0.N, isLast0 (grid0.coords t) ↔ t.val = 5 :=
  (by decide +kernel : ∀ t : Fin grid0.N, isLast0 (grid0.coords t) ↔ t.val = 5)

/-- Before the last point the output window is idle, -/
theorem idle0_5 : ∀ t : Fin cfg0.N, t.val ≠ 5 → cfg0.idle 5 (grid0.coords t) = true :=
  (by decide +kernel : ∀ t : Fin grid0.N, t.val ≠ 5 → cfg0.idle 5 (grid0.coords t) = true)
/-- and not written back; -/
theorem noFlush0_5 : ∀ t : Fin cfg0.N, t.val ≠ 5 → (cfg0.win 5).flush t = false :=
  (by decide +kernel : ∀ t : Fin grid0.N, t.val ≠ 5 → win0_5.flush t = false)
/-- at the last point it is live. -/
theorem live0_5 : ∀ t : Fin cfg0.N, t.val = 5 → cfg0.idle 5 (grid0.coords t) = false :=
  (by decide +kernel : ∀ t : Fin grid0.N, t.val = 5 → cfg0.idle 5 (grid0.coords t) = false)

/-! ## The grid points by number -/

theorem N0_eq : cfg0.N = 6 := N_0

/-- Grid point number `n` (taken modulo the grid's length, so that it is defined for every number). -/
def pt0 (n : ℕ) : Fin cfg0.N := ⟨n % 6, by rw [N0_eq]; exact Nat.mod_lt _ (by decide)⟩

theorem pt0_val (t : Fin cfg0.N) : pt0 t.val = t :=
  Fin.ext (Nat.mod_eq_of_lt (lt_of_lt_of_eq t.isLt N0_eq))

/-- The activation slab of point `n`, -/
def xb0 (c : Dev nD) (n : ℕ) : Vec F S480x256 .f32 := iblk0 V c 0 (pt0 n)
/-- the gate weight slab of point `n`, -/
def gw0 (c : Dev nD) (n : ℕ) : Vec F S480x2880 .f32 := iblk0 V c 1 (pt0 n)
/-- the up weight slab of point `n`, -/
def uw0 (c : Dev nD) (n : ℕ) : Vec F S480x2880 .f32 := iblk0 V c 2 (pt0 n)
/-- the gate bias column, -/
def gbias0 (c : Dev nD) : Vec F S2880x1 .f32 := iblk0 V c 3 (pt0 5)
/-- and the up bias column. -/
def ubias0 (c : Dev nD) : Vec F S2880x1 .f32 := iblk0 V c 4 (pt0 5)

/-- The two accumulators after grid point `n`. -/
def acc0 (c : Dev nD) (n : ℕ) : Vec F S2880x256 .f32 × Vec F S2880x256 .f32 := s1acc (xb0 V c) (gw0 V c) (uw0 V c) n

/-- What the last point stores into the output block. -/
def out0 (c : Dev nD) : Vec F S2880x256 .f32 := s1out (xb0 V c) (gw0 V c) (uw0 V c) (gbias0 V c) (ubias0 V c)

/-- After the first point: the two slab products, over that point's blocks. -/
theorem acc0_first (c : Dev nD) (t : Fin cfg0.N) (h0 : t.val = 0) :
    acc0 V c t.val = (k0_pay4 (iblk0 V c 0 t) (iblk0 V c 1 t), k0_pay5 (iblk0 V c 0 t) (iblk0 V c 2 t)) := by
  obtain rfl : t = pt0 0 := by rw [← h0]; exact (pt0_val t).symm
  rfl

/-- After a later point: what the point before left plus the slab products, over that point's blocks. -/
theorem acc0_later (c : Dev nD) (t : Fin cfg0.N) (h0 : t.val ≠ 0) :
    acc0 V c t.val = (k0_pay6 (iblk0 V c 0 t) (iblk0 V c 1 t) (acc0 V c (t.val - 1)).1,
      k0_pay7 (iblk0 V c 0 t) (iblk0 V c 2 t) (acc0 V c (t.val - 1)).2) := by
  obtain ⟨n, hn⟩ := Nat.exists_eq_succ_of_ne_zero h0
  have ht : pt0 (n + 1) = t := by rw [← Nat.succ_eq_add_one, ← hn]; exact pt0_val t
  rw [hn, Nat.succ_eq_add_one, Nat.add_sub_cancel]
  unfold acc0
  rw [s1acc_succ]
  unfold xb0 gw0 uw0
  rw [ht]

/-- The stored block, over the last point's blocks. -/
theorem out0_last (c : Dev nD) (t : Fin cfg0.N) (h5 : t.val = 5) :
    out0 V c = k0_pay8 (acc0 V c t.val).1 (iblk0 V c 3 t) (acc0 V c t.val).2 (iblk0 V c 4 t) := by
  obtain rfl : t = pt0 5 := by rw [← h5]; exact (pt0_val t).symm
  rfl

/-! ## The region's invariant -/

/-- The two scratch buffers, whole. -/
abbrev scM0 : Memref sig .tc .vmem S2880x256 .f32 := Memref.whole cc0_scratch0
abbrev scM1 : Memref sig .tc .vmem S2880x256 .f32 := Memref.whole cc0_scratch1

/-- The other pallas_call's staging buffers, each whole at some contents: they ride through this region untouched. -/
def otherStaging0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- The class's invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ otherStaging0 c) ∗ (∃ r, prngReg c r)) := by
  unfold Pipeline.ΦA otherStaging0; rw [scopedRest0_eq]; simp only [scM0, scM1, owns_whole]; try rfl

/-- The invariant before grid point `n`: before the first point the class's (the scratch at anything); afterwards the
    scratch buffers at the accumulators the point before left. -/
def PhiS0 (c : Dev nD) : ℕ → sProp 𝕄
  | 0 => Pipeline.ΦA spec0 c
  | n + 1 => iprop(iprop(owns (c : Thread nD τ) scM0 fullShare (acc0 V c n).1 ∗ owns (c : Thread nD τ) scM1 fullShare (acc0 V c n).2 ∗ otherStaging0 c) ∗ (∃ r, prngReg c r))

theorem PhiS0_zero (c : Dev nD) (n : ℕ) (hz : n = 0) : PhiS0 V c n = Pipeline.ΦA spec0 c := by subst hz; rfl

theorem PhiS0_succ (c : Dev nD) (n : ℕ) :
    PhiS0 V c (n + 1) = iprop(iprop(owns (c : Thread nD τ) scM0 fullShare (acc0 V c n).1 ∗ owns (c : Thread nD τ) scM1 fullShare (acc0 V c n).2 ∗ otherStaging0 c) ∗ (∃ r, prngReg c r)) := rfl

theorem PhiS0_pos (c : Dev nD) (n : ℕ) (hz : n ≠ 0) :
    PhiS0 V c n = iprop(iprop(owns (c : Thread nD τ) scM0 fullShare (acc0 V c (n - 1)).1 ∗ owns (c : Thread nD τ) scM1 fullShare (acc0 V c (n - 1)).2 ∗ otherStaging0 c) ∗ (∃ r, prngReg c r)) := by
  cases n with
  | zero => exact absurd rfl hz
  | succ n => rfl

/-! ## The proof data -/

/-- The pipeline's proof data on core `c`: the arrays as the region finds them; after the body each input's
    buffer at its block and the output's at the stored block; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 V c
  Φ t := PhiS0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = PhiS0 V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 V c := by dsimp only [dat0]

theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d
theorem before0_2 (c : Dev nD) (t : Fin cfg0.N) (d) : (dat0 V c).before 2 t d = iblk0 V c 2 t :=
  held0_2 V (dat0 V c) (A_eq0 V c 2) (after0_2 V c) t d
theorem before0_3 (c : Dev nD) (t : Fin cfg0.N) (d) : (dat0 V c).before 3 t d = iblk0 V c 3 t :=
  held0_3 V (dat0 V c) (A_eq0 V c 3) (after0_3 V c) t d
theorem before0_4 (c : Dev nD) (t : Fin cfg0.N) (d) : (dat0 V c).before 4 t d = iblk0 V c 4 t :=
  held0_4 V (dat0 V c) (A_eq0 V c 4) (after0_4 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' buffers hold their blocks. At the first point the scratch buffers hold anything
    and the first case's run leaves the two slab products in them; at a middle point they hold what the point before
    left and the run adds the slab products; the output's buffer is idle at both and handed back as found. At the last
    point the run updates the accumulators and stores the gate into the output's buffer. The other call's staging
    buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) from rfl, PhiS0_succ, Phi0_castSucc]
  rw [show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from rfl,
    show (dat0 V c).leavesExact 3 t = owns (c : Thread nD τ) (st0_3 t) fullShare ((dat0 V c).after 3 t) from rfl,
    show (dat0 V c).leavesExact 4 t = owns (c : Thread nD τ) (st0_4 t) fullShare ((dat0 V c).after 4 t) from rfl,
    after0_0, after0_1, after0_2, after0_3, after0_4]
  have hN : t.val < 6 := lt_of_lt_of_eq t.isLt N0_eq
  by_cases h0 : t.val = 0
  · -- the first point
    have h5 : t.val ≠ 5 := by omega
    rw [Dat.leavesExact_idle (dat0 V c) 5 t (idle0_5 t h5) (noFlush0_5 t h5)]
    rw [acc0_first V c t h0, PhiS0_zero V c _ h0, PhiA0_eq]
    iintro ⟨⟨⟨⟨%e0, HS0⟩, ⟨%e1, HS1⟩, HT⟩, Hg⟩, Ho, ⟨%d0, H0⟩, ⟨%d1, H1⟩, ⟨%d2, H2⟩, ⟨%d3, H3⟩, ⟨%d4, H4⟩, ⟨%d5, H5⟩⟩
    iapply (stage1_first c (grid0.coords t) _ _ _ _ _ _ _ _ _ _ _ _ _ _ _ _ ((first0_iff t).mpr h0) (fun h => ((later0_iff t).mp h) h0) (fun h => h5 ((last0_iff t).mp h))
      (iblk0 V c 0 t) (iblk0 V c 1 t) (iblk0 V c 2 t) (iblk0 V c 3 t) (iblk0 V c 4 t) ((dat0 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HS0 HS1 HT Hg]
    · isplitl [HS0 HS1 HT]
      · isplitl [HS0]; · iexact HS0
        isplitl [HS1]; · iexact HS1
        iexact HT
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h5 : t.val = 5
    · -- the last point
      rw [show (dat0 V c).leavesExact 5 t = owns (c : Thread nD τ) (st0_5 t) fullShare ((dat0 V c).after 5 t) from by
        unfold Dat.leavesExact; rw [live0_5 t h5], after0_5]
      rw [out0_last V c t h5, acc0_later V c t h0, PhiS0_pos V c _ h0]
      iintro ⟨⟨⟨HS0, HS1, HT⟩, Hg⟩, Ho, ⟨%d0, H0⟩, ⟨%d1, H1⟩, ⟨%d2, H2⟩, ⟨%d3, H3⟩, ⟨%d4, H4⟩, ⟨%d5, H5⟩⟩
      iapply (stage1_last c (grid0.coords t) _ _ _ _ _ _ _ _ _ _ _ _ _ _ _ _ (fun h => h0 ((first0_iff t).mp h)) ((later0_iff t).mpr h0) ((last0_iff t).mpr h5)
        (iblk0 V c 0 t) (iblk0 V c 1 t) (iblk0 V c 2 t) (iblk0 V c 3 t) (iblk0 V c 4 t) (acc0 V c (t.val - 1)).1 (acc0 V c (t.val - 1)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      rw [Dat.leavesExact_idle (dat0 V c) 5 t (idle0_5 t h5) (noFlush0_5 t h5)]
      rw [acc0_later V c t h0, PhiS0_pos V c _ h0]
      iintro ⟨⟨⟨HS0, HS1, HT⟩, Hg⟩, Ho, ⟨%d0, H0⟩, ⟨%d1, H1⟩, ⟨%d2, H2⟩, ⟨%d3, H3⟩, ⟨%d4, H4⟩, ⟨%d5, H5⟩⟩
      iapply (stage1_middle c (grid0.coords t) _ _ _ _ _ _ _ _ _ _ _ _ _ _ _ _ (fun h => h0 ((first0_iff t).mp h)) ((later0_iff t).mpr h0) (fun h => h5 ((last0_iff t).mp h))
        (iblk0 V c 0 t) (iblk0 V c 1 t) (iblk0 V c 2 t) (iblk0 V c 3 t) (iblk0 V c 4 t) ((dat0 V c).before 5 t d5) (acc0 V c (t.val - 1)).1 (acc0 V c (t.val - 1)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last, N0_eq]; decide), PhiA0_eq]
  iintro ⟨⟨HS0, HS1, HT⟩, Hg⟩
  isplitl [HS0 HS1 HT]
  · isplitl [HS0]; · iexists _; iexact HS0
    isplitl [HS1]; · iexists _; iexact HS1
    iexact HT
  iexact Hg

end Cert.Kernel.Mlp

end
-- ==== Proof.BitsStage2Region.lean ====
/-
  The second pallas_call as a pipeline region, at any contents `V` of the core's buffers at its entry.

  Its three input windows hold their blocks of the arrays at every grid point. Its output window keeps one block
  for the whole grid, written back only after the last point: the first point stores the slab product plus the
  bias row into it, every later point adds its slab product to what the block holds — the fold `s2acc` over the
  points' blocks. The body never touches the scoped rest or the generator register.
-/
import proofs.«114340_g74105365725337_cont_9to1c4b_446_3_alg».proof.Proof.BitsStage2Body
import proofs.«114340_g74105365725337_cont_9to1c4b_446_3_alg».proof.Proof.BitsFolds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the hidden slabs, -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the weight slabs, -/
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias row. -/
theorem held1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is live -/

/-- The body's first condition holds exactly at the first grid point. -/
theorem first1_iff : ∀ t : Fin cfg1.N, k1_cond1 (grid1.coords t) = 1#1 ↔ t.val = 0 :=
  (by decide +kernel : ∀ t : Fin grid1.N, k1_cond1 (grid1.coords t) = 1#1 ↔ t.val = 0)
/-- Its second condition holds exactly at the later points. -/
theorem later1_iff : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two conditions holds at every coordinate: the output window is never idle. -/
theorem live1_3 : ∀ i : grid1.Coords, cfg1.idle 3 i = false := by
  intro i
  have key : ∀ v : Fin 8,
      (!(Scalar.cmpi .ne (Scalar.extui (Scalar.cmpi .eq (BitVec.ofNat 32 v.val) 0#32)) 0#32 == 1#1)
        && !(Scalar.cmpi .ne (Scalar.extui (Scalar.cmpi .sgt (BitVec.ofNat 32 v.val) 0#32)) 0#32 == 1#1)) = false := by
    decide +kernel
  exact key (i 0)

/-! ## The grid points by number -/

theorem N1_eq : cfg1.N = 8 := N_1

/-- Grid point number `n` (taken modulo the grid's length, so that it is defined for every number). -/
def pt1 (n : ℕ) : Fin cfg1.N := ⟨n % 8, by rw [N1_eq]; exact Nat.mod_lt _ (by decide)⟩

theorem pt1_val (t : Fin cfg1.N) : pt1 t.val = t :=
  Fin.ext (Nat.mod_eq_of_lt (lt_of_lt_of_eq t.isLt N1_eq))

/-- The hidden-activation slab of point `n`, -/
def hb1 (c : Dev nD) (n : ℕ) : Vec F S360x256 .f32 := iblk1 V c 0 (pt1 n)
/-- the weight slab of point `n`, -/
def dw1 (c : Dev nD) (n : ℕ) : Vec F S360x2880 .f32 := iblk1 V c 1 (pt1 n)
/-- and the bias row. -/
def bias1 (c : Dev nD) : Vec F S1x2880 .f32 := iblk1 V c 2 (pt1 0)

/-- What the output block holds after grid point `n`. -/
def acc1 (c : Dev nD) (n : ℕ) : Vec F S256x2880 .f32 := s2acc (hb1 V c) (dw1 V c) (bias1 V c) n

/-- After the first point: the slab product plus the bias row, over that point's blocks. -/
theorem acc1_first (c : Dev nD) (t : Fin cfg1.N) (h0 : t.val = 0) :
    acc1 V c t.val = k1_pay2 (iblk1 V c 0 t) (iblk1 V c 1 t) (iblk1 V c 2 t) := by
  obtain rfl : t = pt1 0 := by rw [← h0]; exact (pt1_val t).symm
  rfl

/-- After a later point: what the point before left plus the slab product, over that point's blocks. -/
theorem acc1_later (c : Dev nD) (t : Fin cfg1.N) (h0 : t.val ≠ 0) :
    acc1 V c t.val = k1_pay3 (iblk1 V c 0 t) (iblk1 V c 1 t) (acc1 V c (t.val - 1)) := by
  obtain ⟨n, hn⟩ := Nat.exists_eq_succ_of_ne_zero h0
  have ht : pt1 (n + 1) = t := by rw [← Nat.succ_eq_add_one, ← hn]; exact pt1_val t
  rw [hn, Nat.succ_eq_add_one, Nat.add_sub_cancel]
  unfold acc1
  rw [s2acc_succ]
  unfold hb1 dw1
  rw [ht]

/-! ## The proof data -/

/-- The pipeline's proof data on core `c`: the arrays as the region finds them; after the body each input's
    buffer at its block and the output's at the fold; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val := by dsimp only [dat1]

theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d

/-- At the first point the output's staging buffer holds anything. -/
theorem before1_3_first (c : Dev nD) (t : Fin cfg1.N) (h0 : t.val = 0) (d) : (dat1 V c).before 3 t d = d :=
  Dat.before_out_reset _ 3 rfl t (.inl h0) d

/-- At a later point it holds what the point before left: it is not written back between, the window is live
    and uncut. -/
theorem before1_3_later (c : Dev nD) (t : Fin cfg1.N) (h0 : t.val ≠ 0) (d) :
    (dat1 V c).before 3 t d = acc1 V c (t.val - 1) := by
  have hN : t.val < 8 := lt_of_lt_of_eq t.isLt N1_eq
  rw [Dat.before_out_kept _ 3 rfl t h0 (Bool.eq_false_iff.mpr fun h => by have := (flush1_3 _).mp h; dsimp only at this; omega)
    live1_3 (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at any point: the inputs' buffers hold their blocks; at the first point the output's holds anything
    and the first case's run applies, at a later point it holds what the point before left and the later case's
    run applies; the scoped rest and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from by
      unfold Dat.leavesExact; rw [live1_3 (grid1.coords t)],
    after1_0, after1_1, after1_2, after1_3]
  by_cases h0 : t.val = 0
  · simp only [before1_3_first V c t h0]
    rw [acc1_first V c t h0]
    iintro ⟨HΦ, Ho, ⟨%d0, H0⟩, ⟨%d1, H1⟩, ⟨%d2, H2⟩, ⟨%d3, H3⟩⟩
    iapply (stage2_first c (grid1.coords t) _ _ _ _ _ _ _ _ ((first1_iff t).mpr h0) (fun h => ((later1_iff t).mp h) h0)
      (iblk1 V c 0 t) (iblk1 V c 1 t) (iblk1 V c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before1_3_later V c t h0]
    rw [acc1_later V c t h0]
    iintro ⟨HΦ, Ho, ⟨%d0, H0⟩, ⟨%d1, H1⟩, ⟨%d2, H2⟩, ⟨%d3, H3⟩⟩
    iapply (stage2_later c (grid1.coords t) _ _ _ _ _ _ _ _ (fun h => h0 ((first1_iff t).mp h)) ((later1_iff t).mpr h0)
      (iblk1 V c 0 t) (iblk1 V c 1 t) (iblk1 V c 2 t) (acc1 V c (t.val - 1)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Mlp

end
-- ==== Proof.BitsLaunch.lean ====
/-
  The whole program: three transposes on the host, then the two pallas_calls, from any launch memory.

  Between two items every unscoped buffer of the core is held whole at named contents: the launch memory; then
  what the transposes leave; then the same with the hidden-activation array at what the first call's write-back
  leaves; then the same with the result array at what the second call's write-back leaves. Each call is entered
  from the contents before it and left at the contents after it; its arrays are split out of the core's buffers
  at entry and put back at exit; the generator register rides along and nothing is owed. The run's post names
  the result array's contents and has every argument array as launched.
-/
import proofs.«114340_g74105365725337_cont_9to1c4b_446_3_alg».proof.Proof.BitsStage1Region
import proofs.«114340_g74105365725337_cont_9to1c4b_446_3_alg».proof.Proof.BitsStage2Region
import proofs.«114340_g74105365725337_cont_9to1c4b_446_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the items' boundaries -/

/-- The core's buffers when the first call is entered, read at the TensorCore's references. -/
abbrev ent0 : (c : Dev nD) → (b : Ref sig .tc) → Buf (Elt F) ((c : Thread nD τ).loc b) := fun c b => Gen.V1 m c b

/-- What the first call leaves in the hidden-activation array. -/
def hidArr (c : Dev nD) : Buf (Elt F) ((c : Thread nD τ).loc main_v3) := (dat0 (ent0 m) c).arrAt 5 cfg0.N

/-- The core's buffers when the second call is entered. -/
abbrev val1 (c : Dev nD) : Valuation τ sig (Elt F) := Function.update (Gen.V1 m c) main_v3 (hidArr m c)
abbrev ent1 : (c : Dev nD) → (b : Ref sig .tc) → Buf (Elt F) ((c : Thread nD τ).loc b) := fun c b => val1 m c b

/-- What the second call leaves in the result array. -/
def resArr (c : Dev nD) : Buf (Elt F) ((c : Thread nD τ).loc main_v4) := (dat1 (ent1 m) c).arrAt 3 cfg1.N

/-- The core's buffers at the end. -/
abbrev val2 (c : Dev nD) : Valuation τ sig (Elt F) := Function.update (val1 m c) main_v4 (resArr m c)
abbrev fin1 : (c : Dev nD) → (b : Ref sig .tc) → Buf (Elt F) ((c : Thread nD τ).loc b) := fun c b => val2 m c b

/-- The two arrays the calls change, as the conditional frame's unknowns. -/
def outs : Gen.Outs (F := F) := fun _ r c =>
  Function.update (Function.update (fun r : Ref sig .tc => (Gen.V1 m c r : Buf (Elt F) ((c : Thread nD τ).loc r))) main_v3 (hidArr m c))
    main_v4 (resArr m c) r

theorem outs_hid (c : Dev nD) : outs m 2 main_v3 c = hidArr m c := by
  unfold outs; rw [Function.update_of_ne (by decide), Function.update_self]
theorem outs_res (c : Dev nD) : outs m 3 main_v4 c = resArr m c := by
  unfold outs; rw [Function.update_self]

theorem V2_eq (c : Dev nD) : Gen.V2 m (outs m) c = val1 m c := by
  show Function.update (Gen.V1 m c) (Proc.devRef .tc main_v3) (outs m 2 main_v3 c) = Function.update (Gen.V1 m c) (Proc.devRef .tc main_v3) (hidArr m c)
  rw [outs_hid]
theorem V3_eq (c : Dev nD) : Gen.V3 m (outs m) c = val2 m c := by
  show Function.update (Gen.V2 m (outs m) c) (Proc.devRef .tc main_v4) (outs m 3 main_v4 c) = Function.update (val1 m c) (Proc.devRef .tc main_v4) (resArr m c)
  rw [outs_res, V2_eq]

/-! ## The proof data family -/

/-- Both calls' proof data, each at its entry contents. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

abbrev L : GSem nD τ sig → Finset Unit := fun _ => ∅
abbrev lv : GSem nD τ sig → Unit → ℕ := fun _ _ => 0

/-- What rides beside the buffers through every item: the generator register at some state, nothing owed. -/
def ride (c : Dev nD) : sProp 𝕄 := iprop((∃ r, prngReg c r) ∗ ∃ W, owes (c : Thread nD τ) (0 : CellTallies nD τ sig Unit) W)

/-! ## What each call leaves, array by array -/

/-- After the first call each of its arrays holds what the pipeline leaves: the inputs as entered, the output its
    write-back. -/
theorem left0 (c : Dev nD) (w : Fin cfg0.W) : (pdats m 0 c).arrAt w cfg0.N = ent1 m c (Pipeline.arrRef spec0 w) := by
  match w with
  | ⟨0, _⟩ => exact ((dat0 (ent0 m) c).arrAt_in 0 rfl _).trans ((A_eq0 (ent0 m) c 0).trans (Function.update_of_ne (StableHlo.devRef_ne_of_ne (by decide)) _ _).symm)
  | ⟨1, _⟩ => exact ((dat0 (ent0 m) c).arrAt_in 1 rfl _).trans ((A_eq0 (ent0 m) c 1).trans (Function.update_of_ne (StableHlo.devRef_ne_of_ne (by decide)) _ _).symm)
  | ⟨2, _⟩ => exact ((dat0 (ent0 m) c).arrAt_in 2 rfl _).trans ((A_eq0 (ent0 m) c 2).trans (Function.update_of_ne (StableHlo.devRef_ne_of_ne (by decide)) _ _).symm)
  | ⟨3, _⟩ => exact ((dat0 (ent0 m) c).arrAt_in 3 rfl _).trans ((A_eq0 (ent0 m) c 3).trans (Function.update_of_ne (StableHlo.devRef_ne_of_ne (by decide)) _ _).symm)
  | ⟨4, _⟩ => exact ((dat0 (ent0 m) c).arrAt_in 4 rfl _).trans ((A_eq0 (ent0 m) c 4).trans (Function.update_of_ne (StableHlo.devRef_ne_of_ne (by decide)) _ _).symm)
  | ⟨5, _⟩ => exact (Function.update_self (Proc.devRef .tc main_v3 : DevRef τ sig) (hidArr m c) (Gen.V1 m c)).symm

/-- Every other buffer is as entered. -/
theorem kept0 (c : Dev nD) : ∀ b, b ∉ Finset.univ.image (Pipeline.arrRef spec0) → ent1 m c b = ent0 m c b :=
  fun b hb => by
    show Function.update (Gen.V1 m c) (Proc.devRef .tc main_v3) (hidArr m c) (Proc.devRef .tc b) = Gen.V1 m c (Proc.devRef .tc b)
    have hne : b ≠ main_v3 := fun e => hb (Finset.mem_image.mpr ⟨(5 : Fin cfg0.W), Finset.mem_univ _, e.symm⟩)
    exact Function.update_of_ne (StableHlo.devRef_ne_of_ne hne) (hidArr m c) (Gen.V1 m c)

/-- After the second call each of its arrays holds what the pipeline leaves. -/
theorem left1 (c : Dev nD) (w : Fin cfg1.W) : (pdats m 1 c).arrAt w cfg1.N = fin1 m c (Pipeline.arrRef spec1 w) := by
  match w with
  | ⟨0, _⟩ => exact ((dat1 (ent1 m) c).arrAt_in 0 rfl _).trans ((A_eq1 (ent1 m) c 0).trans (Function.update_of_ne (StableHlo.devRef_ne_of_ne (by decide)) _ _).symm)
  | ⟨1, _⟩ => exact ((dat1 (ent1 m) c).arrAt_in 1 rfl _).trans ((A_eq1 (ent1 m) c 1).trans (Function.update_of_ne (StableHlo.devRef_ne_of_ne (by decide)) _ _).symm)
  | ⟨2, _⟩ => exact ((dat1 (ent1 m) c).arrAt_in 2 rfl _).trans ((A_eq1 (ent1 m) c 2).trans (Function.update_of_ne (StableHlo.devRef_ne_of_ne (by decide)) _ _).symm)
  | ⟨3, _⟩ => exact (Function.update_self (Proc.devRef .tc main_v4 : DevRef τ sig) (resArr m c) (val1 m c)).symm

theorem kept1 (c : Dev nD) : ∀ b, b ∉ Finset.univ.image (Pipeline.arrRef spec1) → fin1 m c b = ent1 m c b :=
  fun b hb => by
    show Function.update (val1 m c) (Proc.devRef .tc main_v4) (resArr m c) (Proc.devRef .tc b) = val1 m c (Proc.devRef .tc b)
    have hne : b ≠ main_v4 := fun e => hb (Finset.mem_image.mpr ⟨(3 : Fin cfg1.W), Finset.mem_univ _, e.symm⟩)
    exact Function.update_of_ne (StableHlo.devRef_ne_of_ne hne) (resArr m c) (val1 m c)

/-! ## The calls as segments -/

set_option backward.isDefEq.respectTransparency.types false in
/-- The first call: entered from the contents the transposes leave, left with the hidden-activation array at its
    write-back. The accumulators' named contents are forgotten at its exit. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V1 m c) ∗ ride c)
  post c := iprop(StableHlo.held (c : Thread nD τ) (Pipeline.ucRefs τ sig) (val1 m c) ∗ ride c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    unfold ride
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ent1 m c) ((pdats m 0 c).arrAt · cfg0.N) (left0 m c) (kept0 m c)
    rw [Pipeline.unscopedBufs_held] at hjoin
    unfold ride
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from there, left with the result array at its write-back. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (val1 m c) ∗ ride c)
  post c := iprop(StableHlo.held (c : Thread nD τ) (Pipeline.ucRefs τ sig) (val2 m c) ∗ ride c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    unfold ride
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fin1 m c) ((pdats m 1 c).arrAt · cfg1.N) (left1 m c) (kept1 m c)
    rw [Pipeline.unscopedBufs_held] at hjoin
    unfold ride
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The launch's ghost state. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides along: the generator register, nothing owed. -/
theorem hride0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => ride c) : sProp 𝕄) := by
  refine Pipeline.initEach L lv fun c => ?_
  unfold ride
  iintro ⟨⟨-, HO, -, Hp, -⟩, -⟩
  imodintro
  isplitl [Hp]; · iexists _; iexact Hp
  iexists ∅; iexact HO

set_option backward.isDefEq.respectTransparency.types false in
/-- THE FRAME: every weakly fair execution from any memory with zero counters terminates, nothing faulting, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none L lv (fun _ _ => rfl) ρ (outs m) (pdats m) 0 (fun _ => iprop(emp)) u₀ hu₀
    (fun _ c => ride c) (hride0 ρ) (fun c => by unfold ride; iintro ⟨-, HO⟩; iexact HO)
    (reg0 m) (fun c => .rfl) (fun c => by rw [V2_eq]; exact .rfl)
    (reg1 m) (fun c => by rw [V2_eq]; exact .rfl) (fun c => by rw [V3_eq]; exact .rfl)

set_option backward.isDefEq.respectTransparency.types false in
/-- THE RUN WITH THE RESULT NAMED: the same, and the result array ends at what the second call's write-back leaves. -/
theorem run_named : θ_run defs (onTc (τ := τ) (main (F := F))) ⟨m, fun _ => 0, ρ⟩ (fun r => ∀ c : Dev nD,
      r.2.mem ((c.tc : Thread nD τ).loc main_v4) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ Variants.none L lv m ρ main
    (Gen.segs m Variants.none L lv (fun _ c => ride c) () (pdats m) (reg0 m) (reg1 m))
    (fun c Q => by
      rewrite [main_chain c, Pipeline.Seg.run_eq_chain,
        show (Gen.segs m Variants.none L lv (fun _ c => ride c) () (pdats m) (reg0 m) (reg1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp)) u₀ hu₀
    (T₀ := fun c => iprop(StableHlo.held (c : Thread nD τ) (Pipeline.ucRefs τ sig) (Gen.V0 m c) ∗ ride c))
    (Tₙ := fun c => StableHlo.held (c : Thread nD τ) (Pipeline.ucRefs τ sig) (val2 m c))
    (hch := fun c => ⟨.rfl, .rfl, .rfl, sep_mono .rfl (by unfold ride; iintro ⟨-, HO⟩; iexact HO)⟩)
    (hinit := ?_) (QY := fun c s => s.mem ((c.tc : Thread nD τ).loc main_v4) = resArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hride0 ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (val2 m c) s') $$ [Hh HSI]
    · isplitl [Hh] <;> iassumption
    icases Hr with ⟨%h, HSI⟩
    imodintro
    isplitr
    · ipureintro
      have hV : ∀ b, val2 m c b = Gen.V3 m (outs m) c b := fun b => (congrFun (V3_eq m c) b).symm
      exact ⟨(h (Proc.devRef .tc main_v4) (Finset.mem_filter.mpr ⟨StableHlo.devRef_mem_tcRefs main_v4, by decide⟩)).trans (Function.update_self _ _ _),
        (h (Proc.devRef .tc main_arg0) (Finset.mem_filter.mpr ⟨StableHlo.devRef_mem_tcRefs main_arg0, by decide⟩)).trans ((hV _).trans (Gen.V3_main_arg0 m (outs m) c)),
        (h (Proc.devRef .tc main_arg1) (Finset.mem_filter.mpr ⟨StableHlo.devRef_mem_tcRefs main_arg1, by decide⟩)).trans ((hV _).trans (Gen.V3_main_arg1 m (outs m) c)),
        (h (Proc.devRef .tc main_arg2) (Finset.mem_filter.mpr ⟨StableHlo.devRef_mem_tcRefs main_arg2, by decide⟩)).trans ((hV _).trans (Gen.V3_main_arg2 m (outs m) c)),
        (h (Proc.devRef .tc main_arg3) (Finset.mem_filter.mpr ⟨StableHlo.devRef_mem_tcRefs main_arg3, by decide⟩)).trans ((hV _).trans (Gen.V3_main_arg3 m (outs m) c)),
        (h (Proc.devRef .tc main_arg4) (Finset.mem_filter.mpr ⟨StableHlo.devRef_mem_tcRefs main_arg4, by decide⟩)).trans ((hV _).trans (Gen.V3_main_arg4 m (outs m) c)),
        (h (Proc.devRef .tc main_arg5) (Finset.mem_filter.mpr ⟨StableHlo.devRef_mem_tcRefs main_arg5, by decide⟩)).trans ((hV _).trans (Gen.V3_main_arg5 m (outs m) c)),
        (h (Proc.devRef .tc main_arg6) (Finset.mem_filter.mpr ⟨StableHlo.devRef_mem_tcRefs main_arg6, by decide⟩)).trans ((hV _).trans (Gen.V3_main_arg6 m (outs m) c))⟩
    · iexact HSI

end Cert.Kernel.Mlp

end
-- ==== Proof.IdealStage2Body.lean ====
/-
  The second kernel's body on whole staging buffers, one statement per control case.

  At the first grid point the body stores the slab product plus the broadcast bias row into the output block,
  whatever the block held; at every later point it stores what the block held plus the slab product. The
  input blocks come back as they were.
-/
import proofs.«114340_g74105365725337_cont_9to1c4b_446_3_alg».proof.Proof.Gen.KernelIdeal.Launch
import proofs.«114340_g74105365725337_cont_9to1c4b_446_3_alg».proof.Proof.Gen.KernelIdeal.Skeleton
import proofs.«114340_g74105365725337_cont_9to1c4b_446_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-block rectangle's offsets are zero. -/
theorem zero_off2 : (![0, 0] : Fin 2 → Nat) = fun _ => 0 := by
  funext a; match a with | ⟨0, _⟩ => rfl | ⟨1, _⟩ => rfl

set_option maxHeartbeats 1000000 in
/-- First grid point: the output block receives the product of the two slabs plus the bias row. -/
theorem stage2_first (c : Dev nD) (i : grid1.Coords)
    (arg1 : Memref sig .tc .vmem S360x256 .f32) (harg1 : arg1.IsWhole) (arg2 : Memref sig .tc .vmem S360x2880 .f32) (harg2 : arg2.IsWhole)
    (arg3 : Memref sig .tc .vmem S1x2880 .f32) (harg3 : arg3.IsWhole) (arg4 : Memref sig .tc .vmem S256x2880 .f32) (harg4 : arg4.IsWhole)
    (hc1 : k1_cond1 i = 1#1) (hc2 : ¬ k1_cond2 i = 1#1)
    (x0 : Vec F S360x256 .f32) (x1 : Vec F S360x2880 .f32) (x2 : Vec F S1x2880 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2)) -∗ K ⟨⟩))
      ⊢ wp frame (wpE (defs₀ (F := F)) Variants.none c none) E (cc1__stage2_body i arg1 harg1 arg2 harg2 arg3 harg3 arg4 harg4) K := by
  simp only [cc1__stage2_body_eq_skeleton]; unfold cc1__stage2_body_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_eq_canon _ _ _ (fun y => ⟨_, List.mem_singleton_self _, View.mem_set_unit_zero zero_off2 Facts₀.inb_S256x2880_S256x2880_0_0 y⟩),
    View.canon_unit_zero zero_off2]
  simp only [View.readAt_eq_ld, harg1.read_unread, harg2.read_unread, harg3.read_unread,
    View.ld_unit_zero (S := S360x256) zero_off2, View.ld_unit_zero (S := S360x2880) zero_off2,
    View.ld_unit_zero (S := S1x2880) zero_off2]

set_option maxHeartbeats 1000000 in
/-- Every later grid point: the output block receives what it held plus the product of the two slabs. -/
theorem stage2_later (c : Dev nD) (i : grid1.Coords)
    (arg1 : Memref sig .tc .vmem S360x256 .f32) (harg1 : arg1.IsWhole) (arg2 : Memref sig .tc .vmem S360x2880 .f32) (harg2 : arg2.IsWhole)
    (arg3 : Memref sig .tc .vmem S1x2880 .f32) (harg3 : arg3.IsWhole) (arg4 : Memref sig .tc .vmem S256x2880 .f32) (harg4 : arg4.IsWhole)
    (hc1 : ¬ k1_cond1 i = 1#1) (hc2 : k1_cond2 i = 1#1)
    (x0 : Vec F S360x256 .f32) (x1 : Vec F S360x2880 .f32) (x2 : Vec F S1x2880 .f32) (xo : Vec F S256x2880 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 xo)) -∗ K ⟨⟩))
      ⊢ wp frame (wpE (defs₀ (F := F)) Variants.none c none) E (cc1__stage2_body i arg1 harg1 arg2 harg2 arg3 harg3 arg4 harg4) K := by
  simp only [cc1__stage2_body_eq_skeleton]; unfold cc1__stage2_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  iexists _; isplitr
  swap; · iexact H3
  ipureintro
  rw [View.read_writes_eq_canon _ _ _ (fun y => ⟨_, List.mem_singleton_self _, View.mem_set_unit_zero zero_off2 Facts₀.inb_S256x2880_S256x2880_0_0 y⟩),
    View.canon_unit_zero zero_off2]
  simp only [View.readAt_eq_ld, harg1.read_unread, harg2.read_unread, harg4.read_unread,
    View.ld_unit_zero (S := S360x256) zero_off2, View.ld_unit_zero (S := S360x2880) zero_off2,
    View.ld_unit_zero (S := S256x2880) zero_off2]

end Cert.KernelIdeal.Mlp

end
-- ==== Proof.IdealStage1Body.lean ====
/-
  The first kernel's body on whole staging buffers, one statement per control case.

  Every grid point forms the two slab products (gate and up weights against the activation slab). The first
  point stores them into the two accumulators; every later point adds them to what the accumulators held; the
  last point, after that update, also stores the gate of the two accumulators and the bias columns into the
  output block. At the other points the output block is handed back untouched. The input blocks come back as
  they were.
-/
import proofs.«114340_g74105365725337_cont_9to1c4b_446_3_alg».proof.Proof.IdealStage2Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition, from the grid coordinates: the point is the first. -/
abbrev isFirst0 (i : grid0.Coords) : Prop :=
  (Scalar.cmpi .ne (Scalar.extui (Scalar.cmpi .eq (BitVec.ofNat 32 (i 0).val) 0#32)) 0#32) = 1#1
/-- The second: the point is not the first. -/
abbrev isLater0 (i : grid0.Coords) : Prop :=
  (Scalar.cmpi .ne (Scalar.extui (Scalar.cmpi .sgt (BitVec.ofNat 32 (i 0).val) 0#32)) 0#32) = 1#1
/-- The third: the point is the last. -/
abbrev isLast0 (i : grid0.Coords) : Prop := k0_cond3 i = 1#1

set_option maxHeartbeats 2000000 in
/-- First grid point: the accumulators receive the two slab products; the output block is untouched. -/
theorem stage1_first (c : Dev nD) (i : grid0.Coords)
    (arg1 : Memref sig .tc .vmem S480x256 .f32) (harg1 : arg1.IsWhole) (arg2 : Memref sig .tc .vmem S480x2880 .f32) (harg2 : arg2.IsWhole)
    (arg3 : Memref sig .tc .vmem S480x2880 .f32) (harg3 : arg3.IsWhole) (arg4 : Memref sig .tc .vmem S2880x1 .f32) (harg4 : arg4.IsWhole)
    (arg5 : Memref sig .tc .vmem S2880x1 .f32) (harg5 : arg5.IsWhole) (arg6 : Memref sig .tc .vmem S2880x256 .f32) (harg6 : arg6.IsWhole)
    (arg7 : Memref sig .tc .vmem S2880x256 .f32) (harg7 : arg7.IsWhole) (arg8 : Memref sig .tc .vmem S2880x256 .f32) (harg8 : arg8.IsWhole)
    (hc1 : isFirst0 i) (hc2 : ¬ isLater0 i) (hc3 : ¬ isLast0 i)
    (x0 : Vec F S480x256 .f32) (x1 x2 : Vec F S480x2880 .f32) (x3 x4 : Vec F S2880x1 .f32) (xi : Vec F S2880x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
            ∗ owns (c : Thread nD τ) arg7 fullShare (k0_pay4 x0 x1) ∗ owns (c : Thread nD τ) arg8 fullShare (k0_pay5 x0 x2)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  ·
    iexists _; isplitr
    swap; · iexact H6
    ipureintro
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]

  iexists _; isplitr
  swap; · iexact H7
  ipureintro
  rw [View.read_writes_eq_canon _ _ _ (fun y => ⟨_, List.mem_singleton_self _, View.mem_set_unit_zero zero_off2 Facts₀.inb_S2880x256_S2880x256_0_0 y⟩),
    View.canon_unit_zero zero_off2]
  simp only [View.readAt_eq_ld, harg1.read_unread, harg2.read_unread, harg3.read_unread, harg4.read_unread, harg5.read_unread,
    View.ld_unit_zero (S := S480x256) zero_off2, View.ld_unit_zero (S := S480x2880) zero_off2,
    View.ld_unit_zero (S := S2880x1) zero_off2, View.ld_unit_zero (S := S2880x256) zero_off2,
    View.readCov_unit_zero (S := S2880x256) _ zero_off2]

set_option maxHeartbeats 2000000 in
/-- A middle grid point: each accumulator receives what it held plus its slab product; the output block is untouched. -/
theorem stage1_middle (c : Dev nD) (i : grid0.Coords)
    (arg1 : Memref sig .tc .vmem S480x256 .f32) (harg1 : arg1.IsWhole) (arg2 : Memref sig .tc .vmem S480x2880 .f32) (harg2 : arg2.IsWhole)
    (arg3 : Memref sig .tc .vmem S480x2880 .f32) (harg3 : arg3.IsWhole) (arg4 : Memref sig .tc .vmem S2880x1 .f32) (harg4 : arg4.IsWhole)
    (arg5 : Memref sig .tc .vmem S2880x1 .f32) (harg5 : arg5.IsWhole) (arg6 : Memref sig .tc .vmem S2880x256 .f32) (harg6 : arg6.IsWhole)
    (arg7 : Memref sig .tc .vmem S2880x256 .f32) (harg7 : arg7.IsWhole) (arg8 : Memref sig .tc .vmem S2880x256 .f32) (harg8 : arg8.IsWhole)
    (hc1 : ¬ isFirst0 i) (hc2 : isLater0 i) (hc3 : ¬ isLast0 i)
    (x0 : Vec F S480x256 .f32) (x1 x2 : Vec F S480x2880 .f32) (x3 x4 : Vec F S2880x1 .f32) (xi a7 a8 : Vec F S2880x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
        ∗ owns (c : Thread nD τ) arg7 fullShare a7 ∗ owns (c : Thread nD τ) arg8 fullShare a8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi
            ∗ owns (c : Thread nD τ) arg7 fullShare (k0_pay6 x0 x1 a7) ∗ owns (c : Thread nD τ) arg8 fullShare (k0_pay7 x0 x2 a8)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg7.eq_unread hf6; obtain rfl := harg8.eq_unread hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  ·
    iexists _; isplitr
    swap; · iexact H6
    ipureintro
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread, harg7.read_unread, harg8.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]

  iexists _; isplitr
  swap; · iexact H7
  ipureintro
  rw [View.read_writes_eq_canon _ _ _ (fun y => ⟨_, List.mem_singleton_self _, View.mem_set_unit_zero zero_off2 Facts₀.inb_S2880x256_S2880x256_0_0 y⟩),
    View.canon_unit_zero zero_off2]
  simp only [View.readAt_eq_ld, harg1.read_unread, harg2.read_unread, harg3.read_unread, harg4.read_unread, harg5.read_unread, harg7.read_unread, harg8.read_unread,
    View.ld_unit_zero (S := S480x256) zero_off2, View.ld_unit_zero (S := S480x2880) zero_off2,
    View.ld_unit_zero (S := S2880x1) zero_off2, View.ld_unit_zero (S := S2880x256) zero_off2,
    View.readCov_unit_zero (S := S2880x256) _ zero_off2]

set_option maxHeartbeats 4000000 in
/-- The last grid point: the accumulators are updated as at a middle point, and the output block receives the
    gate of the updated accumulators and the two bias columns. -/
theorem stage1_last (c : Dev nD) (i : grid0.Coords)
    (arg1 : Memref sig .tc .vmem S480x256 .f32) (harg1 : arg1.IsWhole) (arg2 : Memref sig .tc .vmem S480x2880 .f32) (harg2 : arg2.IsWhole)
    (arg3 : Memref sig .tc .vmem S480x2880 .f32) (harg3 : arg3.IsWhole) (arg4 : Memref sig .tc .vmem S2880x1 .f32) (harg4 : arg4.IsWhole)
    (arg5 : Memref sig .tc .vmem S2880x1 .f32) (harg5 : arg5.IsWhole) (arg6 : Memref sig .tc .vmem S2880x256 .f32) (harg6 : arg6.IsWhole)
    (arg7 : Memref sig .tc .vmem S2880x256 .f32) (harg7 : arg7.IsWhole) (arg8 : Memref sig .tc .vmem S2880x256 .f32) (harg8 : arg8.IsWhole)
    (hc1 : ¬ isFirst0 i) (hc2 : isLater0 i) (hc3 : isLast0 i)
    (x0 : Vec F S480x256 .f32) (x1 x2 : Vec F S480x2880 .f32) (x3 x4 : Vec F S2880x1 .f32) (a7 a8 : Vec F S2880x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ owns (c : Thread nD τ) arg7 fullShare a7 ∗ owns (c : Thread nD τ) arg8 fullShare a8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay8 (k0_pay6 x0 x1 a7) x3 (k0_pay7 x0 x2 a8) x4)
            ∗ owns (c : Thread nD τ) arg7 fullShare (k0_pay6 x0 x1 a7) ∗ owns (c : Thread nD τ) arg8 fullShare (k0_pay7 x0 x2 a8)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hf6; obtain rfl := harg8.eq_unread hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  ·
    iexists _; isplitr
    swap; · iexact H5
    ipureintro
    sl_unfold_words
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread,
      harg7.read_unread, harg8.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]
  isplitl [H6]
  ·
    iexists _; isplitr
    swap; · iexact H6
    ipureintro
    sl_unfold_words
    rw [View.read_writes_eq_canon _ _ _ (fun y => ⟨_, List.mem_singleton_self _, View.mem_set_unit_zero zero_off2 Facts₀.inb_S2880x256_S2880x256_0_0 y⟩),
      View.canon_unit_zero zero_off2]
    simp only [View.readAt_eq_ld, harg1.read_unread, harg2.read_unread, harg3.read_unread, harg4.read_unread, harg5.read_unread,
      harg7.read_unread, harg8.read_unread,
      View.ld_unit_zero (S := S480x256) zero_off2, View.ld_unit_zero (S := S480x2880) zero_off2,
      View.ld_unit_zero (S := S2880x1) zero_off2, View.ld_unit_zero (S := S2880x256) zero_off2,
      View.readCov_unit_zero (S := S2880x256) _ zero_off2]
  iexists _; isplitr
  swap; · iexact H7
  ipureintro
  sl_unfold_words
  rw [View.read_writes_eq_canon _ _ _ (fun y => ⟨_, List.mem_singleton_self _, View.mem_set_unit_zero zero_off2 Facts₀.inb_S2880x256_S2880x256_0_0 y⟩),
    View.canon_unit_zero zero_off2]
  simp only [View.readAt_eq_ld, harg1.read_unread, harg2.read_unread, harg3.read_unread, harg4.read_unread, harg5.read_unread,
    harg7.read_unread, harg8.read_unread,
    View.ld_unit_zero (S := S480x256) zero_off2, View.ld_unit_zero (S := S480x2880) zero_off2,
    View.ld_unit_zero (S := S2880x1) zero_off2, View.ld_unit_zero (S := S2880x256) zero_off2,
    View.readCov_unit_zero (S := S2880x256) _ zero_off2]

end Cert.KernelIdeal.Mlp

end
-- ==== Proof.IdealFolds.lean ====
/-
  The two kernels' accumulations as pure recursions over the grid, for any family of input blocks.

  Stage 1 keeps two accumulators between grid points: at point 0 each is the product of that point's weight
  slab (contracted over its 480 rows) with the activation slab; at every later point the product of the point's
  slabs is added to what the point before left. At the last point the two accumulators, the two bias columns
  and the clipped-SiLU gate give the stage's output block. Stage 2 accumulates in its output block: the first
  point stores its product plus the bias row, every later point adds its product to what the block held.
  The arithmetic is the skeleton's payloads; nothing here is specific to a float instance.
-/
import proofs.«114340_g74105365725337_cont_9to1c4b_446_3_alg».proof.Proof.Gen.KernelIdeal.Skeleton

noncomputable section

namespace Cert.KernelIdeal.Mlp

open Idealize.ShloMosaic Cert.KernelIdeal Cert.KernelIdeal.Gen

variable {F : FTy → Type} [FloatOps F]

/-- The two accumulators of stage 1 after grid point `n`, from the activation slabs `xb` and the two weight
    slab families `gw`, `uw`: a product at point 0, the running sum afterwards. -/
def s1acc (xb : ℕ → Vec F S480x256 .f32) (gw uw : ℕ → Vec F S480x2880 .f32) :
    ℕ → Vec F S2880x256 .f32 × Vec F S2880x256 .f32
  | 0 => (k0_pay4 (xb 0) (gw 0), k0_pay5 (xb 0) (uw 0))
  | n + 1 => (k0_pay6 (xb (n + 1)) (gw (n + 1)) (s1acc xb gw uw n).1,
              k0_pay7 (xb (n + 1)) (uw (n + 1)) (s1acc xb gw uw n).2)

theorem s1acc_zero (xb : ℕ → Vec F S480x256 .f32) (gw uw : ℕ → Vec F S480x2880 .f32) :
    s1acc xb gw uw 0 = (k0_pay4 (xb 0) (gw 0), k0_pay5 (xb 0) (uw 0)) := rfl

theorem s1acc_succ (xb : ℕ → Vec F S480x256 .f32) (gw uw : ℕ → Vec F S480x2880 .f32) (n : ℕ) :
    s1acc xb gw uw (n + 1) = (k0_pay6 (xb (n + 1)) (gw (n + 1)) (s1acc xb gw uw n).1,
      k0_pay7 (xb (n + 1)) (uw (n + 1)) (s1acc xb gw uw n).2) := rfl

/-- What stage 1 stores into its output block at the last grid point: the gate of the two finished
    accumulators and the two bias columns. -/
def s1out (xb : ℕ → Vec F S480x256 .f32) (gw uw : ℕ → Vec F S480x2880 .f32)
    (gbias ubias : Vec F S2880x1 .f32) : Vec F S2880x256 .f32 :=
  k0_pay8 (s1acc xb gw uw 5).1 gbias (s1acc xb gw uw 5).2 ubias

/-- Stage 2's output block after grid point `n`, from the slabs `hb` of the hidden activations, the slabs `dw`
    of the down-projection weights and the bias row. -/
def s2acc (hb : ℕ → Vec F S360x256 .f32) (dw : ℕ → Vec F S360x2880 .f32) (bias : Vec F S1x2880 .f32) :
    ℕ → Vec F S256x2880 .f32
  | 0 => k1_pay2 (hb 0) (dw 0) bias
  | n + 1 => k1_pay3 (hb (n + 1)) (dw (n + 1)) (s2acc hb dw bias n)

theorem s2acc_zero (hb : ℕ → Vec F S360x256 .f32) (dw : ℕ → Vec F S360x2880 .f32) (bias : Vec F S1x2880 .f32) :
    s2acc hb dw bias 0 = k1_pay2 (hb 0) (dw 0) bias := rfl

theorem s2acc_succ (hb : ℕ → Vec F S360x256 .f32) (dw : ℕ → Vec F S360x2880 .f32) (bias : Vec F S1x2880 .f32) (n : ℕ) :
    s2acc hb dw bias (n + 1) = k1_pay3 (hb (n + 1)) (dw (n + 1)) (s2acc hb dw bias n) := rfl

end Cert.KernelIdeal.Mlp

end
-- ==== Proof.IdealStage1Region.lean ====
/-
  The first pallas_call as a pipeline region, at any contents `V` of the core's buffers at its entry.

  Its five input windows hold their blocks of the arrays at every grid point. Two scratch buffers carry the
  gate and up accumulators from point to point — the fold `s1acc` over the points' slabs —, so the region's
  invariant names their contents after every point. The output window keeps one block for the whole grid; the
  body stores into it at the last point only (the gate of the finished accumulators and the bias columns), and
  only then is it written back; at the other points its buffer is handed back as found.
-/
import proofs.«114340_g74105365725337_cont_9to1c4b_446_3_alg».proof.Proof.IdealStage1Body
import proofs.«114340_g74105365725337_cont_9to1c4b_446_3_alg».proof.Proof.IdealFolds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the activation slabs, -/
theorem held0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the gate weight slabs, -/
theorem held0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- the up weight slabs, -/
theorem held0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- the gate bias column, -/
theorem held0_3 {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- and the up bias column. -/
theorem held0_4 {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the output window is idle -/

/-- The body's first condition holds exactly at the first grid point, -/
theorem first0_iff : ∀ t : Fin cfg0.N, isFirst0 (grid0.coords t) ↔ t.val = 0 :=
  (by decide +kernel : ∀ t : Fin grid0.N, isFirst0 (grid0.coords t) ↔ t.val = 0)
/-- its second at the later points, -/
theorem later0_iff : ∀ t : Fin cfg0.N, isLater0 (grid0.coords t) ↔ t.val ≠ 0 :=
  (by decide +kernel : ∀ t : Fin grid0.N, isLater0 (grid0.coords t) ↔ t.val ≠ 0)
/-- its third at the last point. -/
theorem last0_iff : ∀ t : Fin cfg0.N, isLast0 (grid0.coords t) ↔ t.val = 5 :=
  (by decide +kernel : ∀ t : Fin grid0.N, isLast0 (grid0.coords t) ↔ t.val = 5)

/-- Before the last point the output window is idle, -/
theorem idle0_5 : ∀ t : Fin cfg0.N, t.val ≠ 5 → cfg0.idle 5 (grid0.coords t) = true :=
  (by decide +kernel : ∀ t : Fin grid0.N, t.val ≠ 5 → cfg0.idle 5 (grid0.coords t) = true)
/-- and not written back; -/
theorem noFlush0_5 : ∀ t : Fin cfg0.N, t.val ≠ 5 → (cfg0.win 5).flush t = false :=
  (by decide +kernel : ∀ t : Fin grid0.N, t.val ≠ 5 → win0_5.flush t = false)
/-- at the last point it is live. -/
theorem live0_5 : ∀ t : Fin cfg0.N, t.val = 5 → cfg0.idle 5 (grid0.coords t) = false :=
  (by decide +kernel : ∀ t : Fin grid0.N, t.val = 5 → cfg0.idle 5 (grid0.coords t) = false)

/-! ## The grid points by number -/

theorem N0_eq : cfg0.N = 6 := N_0

/-- Grid point number `n` (taken modulo the grid's length, so that it is defined for every number). -/
def pt0 (n : ℕ) : Fin cfg0.N := ⟨n % 6, by rw [N0_eq]; exact Nat.mod_lt _ (by decide)⟩

theorem pt0_val (t : Fin cfg0.N) : pt0 t.val = t :=
  Fin.ext (Nat.mod_eq_of_lt (lt_of_lt_of_eq t.isLt N0_eq))

/-- The activation slab of point `n`, -/
def xb0 (c : Dev nD) (n : ℕ) : Vec F S480x256 .f32 := iblk0 V c 0 (pt0 n)
/-- the gate weight slab of point `n`, -/
def gw0 (c : Dev nD) (n : ℕ) : Vec F S480x2880 .f32 := iblk0 V c 1 (pt0 n)
/-- the up weight slab of point `n`, -/
def uw0 (c : Dev nD) (n : ℕ) : Vec F S480x2880 .f32 := iblk0 V c 2 (pt0 n)
/-- the gate bias column, -/
def gbias0 (c : Dev nD) : Vec F S2880x1 .f32 := iblk0 V c 3 (pt0 5)
/-- and the up bias column. -/
def ubias0 (c : Dev nD) : Vec F S2880x1 .f32 := iblk0 V c 4 (pt0 5)

/-- The two accumulators after grid point `n`. -/
def acc0 (c : Dev nD) (n : ℕ) : Vec F S2880x256 .f32 × Vec F S2880x256 .f32 := s1acc (xb0 V c) (gw0 V c) (uw0 V c) n

/-- What the last point stores into the output block. -/
def out0 (c : Dev nD) : Vec F S2880x256 .f32 := s1out (xb0 V c) (gw0 V c) (uw0 V c) (gbias0 V c) (ubias0 V c)

/-- After the first point: the two slab products, over that point's blocks. -/
theorem acc0_first (c : Dev nD) (t : Fin cfg0.N) (h0 : t.val = 0) :
    acc0 V c t.val = (k0_pay4 (iblk0 V c 0 t) (iblk0 V c 1 t), k0_pay5 (iblk0 V c 0 t) (iblk0 V c 2 t)) := by
  obtain rfl : t = pt0 0 := by rw [← h0]; exact (pt0_val t).symm
  rfl

/-- After a later point: what the point before left plus the slab products, over that point's blocks. -/
theorem acc0_later (c : Dev nD) (t : Fin cfg0.N) (h0 : t.val ≠ 0) :
    acc0 V c t.val = (k0_pay6 (iblk0 V c 0 t) (iblk0 V c 1 t) (acc0 V c (t.val - 1)).1,
      k0_pay7 (iblk0 V c 0 t) (iblk0 V c 2 t) (acc0 V c (t.val - 1)).2) := by
  obtain ⟨n, hn⟩ := Nat.exists_eq_succ_of_ne_zero h0
  have ht : pt0 (n + 1) = t := by rw [← Nat.succ_eq_add_one, ← hn]; exact pt0_val t
  rw [hn, Nat.succ_eq_add_one, Nat.add_sub_cancel]
  unfold acc0
  rw [s1acc_succ]
  unfold xb0 gw0 uw0
  rw [ht]

/-- The stored block, over the last point's blocks. -/
theorem out0_last (c : Dev nD) (t : Fin cfg0.N) (h5 : t.val = 5) :
    out0 V c = k0_pay8 (acc0 V c t.val).1 (iblk0 V c 3 t) (acc0 V c t.val).2 (iblk0 V c 4 t) := by
  obtain rfl : t = pt0 5 := by rw [← h5]; exact (pt0_val t).symm
  rfl

/-! ## The region's invariant -/

/-- The two scratch buffers, whole. -/
abbrev scM0 : Memref sig .tc .vmem S2880x256 .f32 := Memref.whole cc0_scratch0
abbrev scM1 : Memref sig .tc .vmem S2880x256 .f32 := Memref.whole cc0_scratch1

/-- The other pallas_call's staging buffers, each whole at some contents: they ride through this region untouched. -/
def otherStaging0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- The class's invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ otherStaging0 c) ∗ (∃ r, prngReg c r)) := by
  unfold Pipeline.ΦA otherStaging0; rw [scopedRest0_eq]; simp only [scM0, scM1, owns_whole]; try rfl

/-- The invariant before grid point `n`: before the first point the class's (the scratch at anything); afterwards the
    scratch buffers at the accumulators the point before left. -/
def PhiS0 (c : Dev nD) : ℕ → sProp 𝕄
  | 0 => Pipeline.ΦA spec0 c
  | n + 1 => iprop(iprop(owns (c : Thread nD τ) scM0 fullShare (acc0 V c n).1 ∗ owns (c : Thread nD τ) scM1 fullShare (acc0 V c n).2 ∗ otherStaging0 c) ∗ (∃ r, prngReg c r))

theorem PhiS0_zero (c : Dev nD) (n : ℕ) (hz : n = 0) : PhiS0 V c n = Pipeline.ΦA spec0 c := by subst hz; rfl

theorem PhiS0_succ (c : Dev nD) (n : ℕ) :
    PhiS0 V c (n + 1) = iprop(iprop(owns (c : Thread nD τ) scM0 fullShare (acc0 V c n).1 ∗ owns (c : Thread nD τ) scM1 fullShare (acc0 V c n).2 ∗ otherStaging0 c) ∗ (∃ r, prngReg c r)) := rfl

theorem PhiS0_pos (c : Dev nD) (n : ℕ) (hz : n ≠ 0) :
    PhiS0 V c n = iprop(iprop(owns (c : Thread nD τ) scM0 fullShare (acc0 V c (n - 1)).1 ∗ owns (c : Thread nD τ) scM1 fullShare (acc0 V c (n - 1)).2 ∗ otherStaging0 c) ∗ (∃ r, prngReg c r)) := by
  cases n with
  | zero => exact absurd rfl hz
  | succ n => rfl

/-! ## The proof data -/

/-- The pipeline's proof data on core `c`: the arrays as the region finds them; after the body each input's
    buffer at its block and the output's at the stored block; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 V c
  Φ t := PhiS0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = PhiS0 V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 V c := by dsimp only [dat0]

theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d
theorem before0_2 (c : Dev nD) (t : Fin cfg0.N) (d) : (dat0 V c).before 2 t d = iblk0 V c 2 t :=
  held0_2 V (dat0 V c) (A_eq0 V c 2) (after0_2 V c) t d
theorem before0_3 (c : Dev nD) (t : Fin cfg0.N) (d) : (dat0 V c).before 3 t d = iblk0 V c 3 t :=
  held0_3 V (dat0 V c) (A_eq0 V c 3) (after0_3 V c) t d
theorem before0_4 (c : Dev nD) (t : Fin cfg0.N) (d) : (dat0 V c).before 4 t d = iblk0 V c 4 t :=
  held0_4 V (dat0 V c) (A_eq0 V c 4) (after0_4 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' buffers hold their blocks. At the first point the scratch buffers hold anything
    and the first case's run leaves the two slab products in them; at a middle point they hold what the point before
    left and the run adds the slab products; the output's buffer is idle at both and handed back as found. At the last
    point the run updates the accumulators and stores the gate into the output's buffer. The other call's staging
    buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) from rfl, PhiS0_succ, Phi0_castSucc]
  rw [show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from rfl,
    show (dat0 V c).leavesExact 3 t = owns (c : Thread nD τ) (st0_3 t) fullShare ((dat0 V c).after 3 t) from rfl,
    show (dat0 V c).leavesExact 4 t = owns (c : Thread nD τ) (st0_4 t) fullShare ((dat0 V c).after 4 t) from rfl,
    after0_0, after0_1, after0_2, after0_3, after0_4]
  have hN : t.val < 6 := lt_of_lt_of_eq t.isLt N0_eq
  by_cases h0 : t.val = 0
  · -- the first point
    have h5 : t.val ≠ 5 := by omega
    rw [Dat.leavesExact_idle (dat0 V c) 5 t (idle0_5 t h5) (noFlush0_5 t h5)]
    rw [acc0_first V c t h0, PhiS0_zero V c _ h0, PhiA0_eq]
    iintro ⟨⟨⟨⟨%e0, HS0⟩, ⟨%e1, HS1⟩, HT⟩, Hg⟩, Ho, ⟨%d0, H0⟩, ⟨%d1, H1⟩, ⟨%d2, H2⟩, ⟨%d3, H3⟩, ⟨%d4, H4⟩, ⟨%d5, H5⟩⟩
    iapply (stage1_first c (grid0.coords t) _ _ _ _ _ _ _ _ _ _ _ _ _ _ _ _ ((first0_iff t).mpr h0) (fun h => ((later0_iff t).mp h) h0) (fun h => h5 ((last0_iff t).mp h))
      (iblk0 V c 0 t) (iblk0 V c 1 t) (iblk0 V c 2 t) (iblk0 V c 3 t) (iblk0 V c 4 t) ((dat0 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HS0 HS1 HT Hg]
    · isplitl [HS0 HS1 HT]
      · isplitl [HS0]; · iexact HS0
        isplitl [HS1]; · iexact HS1
        iexact HT
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h5 : t.val = 5
    · -- the last point
      rw [show (dat0 V c).leavesExact 5 t = owns (c : Thread nD τ) (st0_5 t) fullShare ((dat0 V c).after 5 t) from by
        unfold Dat.leavesExact; rw [live0_5 t h5], after0_5]
      rw [out0_last V c t h5, acc0_later V c t h0, PhiS0_pos V c _ h0]
      iintro ⟨⟨⟨HS0, HS1, HT⟩, Hg⟩, Ho, ⟨%d0, H0⟩, ⟨%d1, H1⟩, ⟨%d2, H2⟩, ⟨%d3, H3⟩, ⟨%d4, H4⟩, ⟨%d5, H5⟩⟩
      iapply (stage1_last c (grid0.coords t) _ _ _ _ _ _ _ _ _ _ _ _ _ _ _ _ (fun h => h0 ((first0_iff t).mp h)) ((later0_iff t).mpr h0) ((last0_iff t).mpr h5)
        (iblk0 V c 0 t) (iblk0 V c 1 t) (iblk0 V c 2 t) (iblk0 V c 3 t) (iblk0 V c 4 t) (acc0 V c (t.val - 1)).1 (acc0 V c (t.val - 1)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      rw [Dat.leavesExact_idle (dat0 V c) 5 t (idle0_5 t h5) (noFlush0_5 t h5)]
      rw [acc0_later V c t h0, PhiS0_pos V c _ h0]
      iintro ⟨⟨⟨HS0, HS1, HT⟩, Hg⟩, Ho, ⟨%d0, H0⟩, ⟨%d1, H1⟩, ⟨%d2, H2⟩, ⟨%d3, H3⟩, ⟨%d4, H4⟩, ⟨%d5, H5⟩⟩
      iapply (stage1_middle c (grid0.coords t) _ _ _ _ _ _ _ _ _ _ _ _ _ _ _ _ (fun h => h0 ((first0_iff t).mp h)) ((later0_iff t).mpr h0) (fun h => h5 ((last0_iff t).mp h))
        (iblk0 V c 0 t) (iblk0 V c 1 t) (iblk0 V c 2 t) (iblk0 V c 3 t) (iblk0 V c 4 t) ((dat0 V c).before 5 t d5) (acc0 V c (t.val - 1)).1 (acc0 V c (t.val - 1)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last, N0_eq]; decide), PhiA0_eq]
  iintro ⟨⟨HS0, HS1, HT⟩, Hg⟩
  isplitl [HS0 HS1 HT]
  · isplitl [HS0]; · iexists _; iexact HS0
    isplitl [HS1]; · iexists _; iexact HS1
    iexact HT
  iexact Hg

end Cert.KernelIdeal.Mlp

end
-- ==== Proof.IdealStage2Region.lean ====
/-
  The second pallas_call as a pipeline region, at any contents `V` of the core's buffers at its entry.

  Its three input windows hold their blocks of the arrays at every grid point. Its output window keeps one block
  for the whole grid, written back only after the last point: the first point stores the slab product plus the
  bias row into it, every later point adds its slab product to what the block holds — the fold `s2acc` over the
  points' blocks. The body never touches the scoped rest or the generator register.
-/
import proofs.«114340_g74105365725337_cont_9to1c4b_446_3_alg».proof.Proof.IdealStage2Body
import proofs.«114340_g74105365725337_cont_9to1c4b_446_3_alg».proof.Proof.IdealFolds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the hidden slabs, -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the weight slabs, -/
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias row. -/
theorem held1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is live -/

/-- The body's first condition holds exactly at the first grid point. -/
theorem first1_iff : ∀ t : Fin cfg1.N, k1_cond1 (grid1.coords t) = 1#1 ↔ t.val = 0 :=
  (by decide +kernel : ∀ t : Fin grid1.N, k1_cond1 (grid1.coords t) = 1#1 ↔ t.val = 0)
/-- Its second condition holds exactly at the later points. -/
theorem later1_iff : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two conditions holds at every coordinate: the output window is never idle. -/
theorem live1_3 : ∀ i : grid1.Coords, cfg1.idle 3 i = false := by
  intro i
  have key : ∀ v : Fin 8,
      (!(Scalar.cmpi .ne (Scalar.extui (Scalar.cmpi .eq (BitVec.ofNat 32 v.val) 0#32)) 0#32 == 1#1)
        && !(Scalar.cmpi .ne (Scalar.extui (Scalar.cmpi .sgt (BitVec.ofNat 32 v.val) 0#32)) 0#32 == 1#1)) = false := by
    decide +kernel
  exact key (i 0)

/-! ## The grid points by number -/

theorem N1_eq : cfg1.N = 8 := N_1

/-- Grid point number `n` (taken modulo the grid's length, so that it is defined for every number). -/
def pt1 (n : ℕ) : Fin cfg1.N := ⟨n % 8, by rw [N1_eq]; exact Nat.mod_lt _ (by decide)⟩

theorem pt1_val (t : Fin cfg1.N) : pt1 t.val = t :=
  Fin.ext (Nat.mod_eq_of_lt (lt_of_lt_of_eq t.isLt N1_eq))

/-- The hidden-activation slab of point `n`, -/
def hb1 (c : Dev nD) (n : ℕ) : Vec F S360x256 .f32 := iblk1 V c 0 (pt1 n)
/-- the weight slab of point `n`, -/
def dw1 (c : Dev nD) (n : ℕ) : Vec F S360x2880 .f32 := iblk1 V c 1 (pt1 n)
/-- and the bias row. -/
def bias1 (c : Dev nD) : Vec F S1x2880 .f32 := iblk1 V c 2 (pt1 0)

/-- What the output block holds after grid point `n`. -/
def acc1 (c : Dev nD) (n : ℕ) : Vec F S256x2880 .f32 := s2acc (hb1 V c) (dw1 V c) (bias1 V c) n

/-- After the first point: the slab product plus the bias row, over that point's blocks. -/
theorem acc1_first (c : Dev nD) (t : Fin cfg1.N) (h0 : t.val = 0) :
    acc1 V c t.val = k1_pay2 (iblk1 V c 0 t) (iblk1 V c 1 t) (iblk1 V c 2 t) := by
  obtain rfl : t = pt1 0 := by rw [← h0]; exact (pt1_val t).symm
  rfl

/-- After a later point: what the point before left plus the slab product, over that point's blocks. -/
theorem acc1_later (c : Dev nD) (t : Fin cfg1.N) (h0 : t.val ≠ 0) :
    acc1 V c t.val = k1_pay3 (iblk1 V c 0 t) (iblk1 V c 1 t) (acc1 V c (t.val - 1)) := by
  obtain ⟨n, hn⟩ := Nat.exists_eq_succ_of_ne_zero h0
  have ht : pt1 (n + 1) = t := by rw [← Nat.succ_eq_add_one, ← hn]; exact pt1_val t
  rw [hn, Nat.succ_eq_add_one, Nat.add_sub_cancel]
  unfold acc1
  rw [s2acc_succ]
  unfold hb1 dw1
  rw [ht]

/-! ## The proof data -/

/-- The pipeline's proof data on core `c`: the arrays as the region finds them; after the body each input's
    buffer at its block and the output's at the fold; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val := by dsimp only [dat1]

theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d

/-- At the first point the output's staging buffer holds anything. -/
theorem before1_3_first (c : Dev nD) (t : Fin cfg1.N) (h0 : t.val = 0) (d) : (dat1 V c).before 3 t d = d :=
  Dat.before_out_reset _ 3 rfl t (.inl h0) d

/-- At a later point it holds what the point before left: it is not written back between, the window is live
    and uncut. -/
theorem before1_3_later (c : Dev nD) (t : Fin cfg1.N) (h0 : t.val ≠ 0) (d) :
    (dat1 V c).before 3 t d = acc1 V c (t.val - 1) := by
  have hN : t.val < 8 := lt_of_lt_of_eq t.isLt N1_eq
  rw [Dat.before_out_kept _ 3 rfl t h0 (Bool.eq_false_iff.mpr fun h => by have := (flush1_3 _).mp h; dsimp only at this; omega)
    live1_3 (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at any point: the inputs' buffers hold their blocks; at the first point the output's holds anything
    and the first case's run applies, at a later point it holds what the point before left and the later case's
    run applies; the scoped rest and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from by
      unfold Dat.leavesExact; rw [live1_3 (grid1.coords t)],
    after1_0, after1_1, after1_2, after1_3]
  by_cases h0 : t.val = 0
  · simp only [before1_3_first V c t h0]
    rw [acc1_first V c t h0]
    iintro ⟨HΦ, Ho, ⟨%d0, H0⟩, ⟨%d1, H1⟩, ⟨%d2, H2⟩, ⟨%d3, H3⟩⟩
    iapply (stage2_first c (grid1.coords t) _ _ _ _ _ _ _ _ ((first1_iff t).mpr h0) (fun h => ((later1_iff t).mp h) h0)
      (iblk1 V c 0 t) (iblk1 V c 1 t) (iblk1 V c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before1_3_later V c t h0]
    rw [acc1_later V c t h0]
    iintro ⟨HΦ, Ho, ⟨%d0, H0⟩, ⟨%d1, H1⟩, ⟨%d2, H2⟩, ⟨%d3, H3⟩⟩
    iapply (stage2_later c (grid1.coords t) _ _ _ _ _ _ _ _ (fun h => h0 ((first1_iff t).mp h)) ((later1_iff t).mpr h0)
      (iblk1 V c 0 t) (iblk1 V c 1 t) (iblk1 V c 2 t) (acc1 V c (t.val - 1)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Mlp

end
-- ==== Proof.IdealLaunch.lean ====
/-
  The whole program: three transposes on the host, then the two pallas_calls, from any launch memory.

  Between two items every unscoped buffer of the core is held whole at named contents: the launch memory; then
  what the transposes leave; then the same with the hidden-activation array at what the first call's write-back
  leaves; then the same with the result array at what the second call's write-back leaves. Each call is entered
  from the contents before it and left at the contents after it; its arrays are split out of the core's buffers
  at entry and put back at exit; the generator register rides along and nothing is owed. The run's post names
  the result array's contents and has every argument array as launched.
-/
import proofs.«114340_g74105365725337_cont_9to1c4b_446_3_alg».proof.Proof.IdealStage1Region
import proofs.«114340_g74105365725337_cont_9to1c4b_446_3_alg».proof.Proof.IdealStage2Region
import proofs.«114340_g74105365725337_cont_9to1c4b_446_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the items' boundaries -/

/-- The core's buffers when the first call is entered, read at the TensorCore's references. -/
abbrev ent0 : (c : Dev nD) → (b : Ref sig .tc) → Buf (Elt F) ((c : Thread nD τ).loc b) := fun c b => Gen.V1 m c b

/-- What the first call leaves in the hidden-activation array. -/
def hidArr (c : Dev nD) : Buf (Elt F) ((c : Thread nD τ).loc main_v3) := (dat0 (ent0 m) c).arrAt 5 cfg0.N

/-- The core's buffers when the second call is entered. -/
abbrev val1 (c : Dev nD) : Valuation τ sig (Elt F) := Function.update (Gen.V1 m c) main_v3 (hidArr m c)
abbrev ent1 : (c : Dev nD) → (b : Ref sig .tc) → Buf (Elt F) ((c : Thread nD τ).loc b) := fun c b => val1 m c b

/-- What the second call leaves in the result array. -/
def resArr (c : Dev nD) : Buf (Elt F) ((c : Thread nD τ).loc main_v4) := (dat1 (ent1 m) c).arrAt 3 cfg1.N

/-- The core's buffers at the end. -/
abbrev val2 (c : Dev nD) : Valuation τ sig (Elt F) := Function.update (val1 m c) main_v4 (resArr m c)
abbrev fin1 : (c : Dev nD) → (b : Ref sig .tc) → Buf (Elt F) ((c : Thread nD τ).loc b) := fun c b => val2 m c b

/-- The two arrays the calls change, as the conditional frame's unknowns. -/
def outs : Gen.Outs (F := F) := fun _ r c =>
  Function.update (Function.update (fun r : Ref sig .tc => (Gen.V1 m c r : Buf (Elt F) ((c : Thread nD τ).loc r))) main_v3 (hidArr m c))
    main_v4 (resArr m c) r

theorem outs_hid (c : Dev nD) : outs m 2 main_v3 c = hidArr m c := by
  unfold outs; rw [Function.update_of_ne (by decide), Function.update_self]
theorem outs_res (c : Dev nD) : outs m 3 main_v4 c = resArr m c := by
  unfold outs; rw [Function.update_self]

theorem V2_eq (c : Dev nD) : Gen.V2 m (outs m) c = val1 m c := by
  show Function.update (Gen.V1 m c) (Proc.devRef .tc main_v3) (outs m 2 main_v3 c) = Function.update (Gen.V1 m c) (Proc.devRef .tc main_v3) (hidArr m c)
  rw [outs_hid]
theorem V3_eq (c : Dev nD) : Gen.V3 m (outs m) c = val2 m c := by
  show Function.update (Gen.V2 m (outs m) c) (Proc.devRef .tc main_v4) (outs m 3 main_v4 c) = Function.update (val1 m c) (Proc.devRef .tc main_v4) (resArr m c)
  rw [outs_res, V2_eq]

/-! ## The proof data family -/

/-- Both calls' proof data, each at its entry contents. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

abbrev L : GSem nD τ sig → Finset Unit := fun _ => ∅
abbrev lv : GSem nD τ sig → Unit → ℕ := fun _ _ => 0

/-- What rides beside the buffers through every item: the generator register at some state, nothing owed. -/
def ride (c : Dev nD) : sProp 𝕄 := iprop((∃ r, prngReg c r) ∗ ∃ W, owes (c : Thread nD τ) (0 : CellTallies nD τ sig Unit) W)

/-! ## What each call leaves, array by array -/

/-- After the first call each of its arrays holds what the pipeline leaves: the inputs as entered, the output its
    write-back. -/
theorem left0 (c : Dev nD) (w : Fin cfg0.W) : (pdats m 0 c).arrAt w cfg0.N = ent1 m c (Pipeline.arrRef spec0 w) := by
  match w with
  | ⟨0, _⟩ => exact ((dat0 (ent0 m) c).arrAt_in 0 rfl _).trans ((A_eq0 (ent0 m) c 0).trans (Function.update_of_ne (StableHlo.devRef_ne_of_ne (by decide)) _ _).symm)
  | ⟨1, _⟩ => exact ((dat0 (ent0 m) c).arrAt_in 1 rfl _).trans ((A_eq0 (ent0 m) c 1).trans (Function.update_of_ne (StableHlo.devRef_ne_of_ne (by decide)) _ _).symm)
  | ⟨2, _⟩ => exact ((dat0 (ent0 m) c).arrAt_in 2 rfl _).trans ((A_eq0 (ent0 m) c 2).trans (Function.update_of_ne (StableHlo.devRef_ne_of_ne (by decide)) _ _).symm)
  | ⟨3, _⟩ => exact ((dat0 (ent0 m) c).arrAt_in 3 rfl _).trans ((A_eq0 (ent0 m) c 3).trans (Function.update_of_ne (StableHlo.devRef_ne_of_ne (by decide)) _ _).symm)
  | ⟨4, _⟩ => exact ((dat0 (ent0 m) c).arrAt_in 4 rfl _).trans ((A_eq0 (ent0 m) c 4).trans (Function.update_of_ne (StableHlo.devRef_ne_of_ne (by decide)) _ _).symm)
  | ⟨5, _⟩ => exact (Function.update_self (Proc.devRef .tc main_v3 : DevRef τ sig) (hidArr m c) (Gen.V1 m c)).symm

/-- Every other buffer is as entered. -/
theorem kept0 (c : Dev nD) : ∀ b, b ∉ Finset.univ.image (Pipeline.arrRef spec0) → ent1 m c b = ent0 m c b :=
  fun b hb => by
    show Function.update (Gen.V1 m c) (Proc.devRef .tc main_v3) (hidArr m c) (Proc.devRef .tc b) = Gen.V1 m c (Proc.devRef .tc b)
    have hne : b ≠ main_v3 := fun e => hb (Finset.mem_image.mpr ⟨(5 : Fin cfg0.W), Finset.mem_univ _, e.symm⟩)
    exact Function.update_of_ne (StableHlo.devRef_ne_of_ne hne) (hidArr m c) (Gen.V1 m c)

/-- After the second call each of its arrays holds what the pipeline leaves. -/
theorem left1 (c : Dev nD) (w : Fin cfg1.W) : (pdats m 1 c).arrAt w cfg1.N = fin1 m c (Pipeline.arrRef spec1 w) := by
  match w with
  | ⟨0, _⟩ => exact ((dat1 (ent1 m) c).arrAt_in 0 rfl _).trans ((A_eq1 (ent1 m) c 0).trans (Function.update_of_ne (StableHlo.devRef_ne_of_ne (by decide)) _ _).symm)
  | ⟨1, _⟩ => exact ((dat1 (ent1 m) c).arrAt_in 1 rfl _).trans ((A_eq1 (ent1 m) c 1).trans (Function.update_of_ne (StableHlo.devRef_ne_of_ne (by decide)) _ _).symm)
  | ⟨2, _⟩ => exact ((dat1 (ent1 m) c).arrAt_in 2 rfl _).trans ((A_eq1 (ent1 m) c 2).trans (Function.update_of_ne (StableHlo.devRef_ne_of_ne (by decide)) _ _).symm)
  | ⟨3, _⟩ => exact (Function.update_self (Proc.devRef .tc main_v4 : DevRef τ sig) (resArr m c) (val1 m c)).symm

theorem kept1 (c : Dev nD) : ∀ b, b ∉ Finset.univ.image (Pipeline.arrRef spec1) → fin1 m c b = ent1 m c b :=
  fun b hb => by
    show Function.update (val1 m c) (Proc.devRef .tc main_v4) (resArr m c) (Proc.devRef .tc b) = val1 m c (Proc.devRef .tc b)
    have hne : b ≠ main_v4 := fun e => hb (Finset.mem_image.mpr ⟨(3 : Fin cfg1.W), Finset.mem_univ _, e.symm⟩)
    exact Function.update_of_ne (StableHlo.devRef_ne_of_ne hne) (resArr m c) (val1 m c)

/-! ## The calls as segments -/

set_option backward.isDefEq.respectTransparency.types false in
/-- The first call: entered from the contents the transposes leave, left with the hidden-activation array at its
    write-back. The accumulators' named contents are forgotten at its exit. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V1 m c) ∗ ride c)
  post c := iprop(StableHlo.held (c : Thread nD τ) (Pipeline.ucRefs τ sig) (val1 m c) ∗ ride c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    unfold ride
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ent1 m c) ((pdats m 0 c).arrAt · cfg0.N) (left0 m c) (kept0 m c)
    rw [Pipeline.unscopedBufs_held] at hjoin
    unfold ride
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from there, left with the result array at its write-back. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (val1 m c) ∗ ride c)
  post c := iprop(StableHlo.held (c : Thread nD τ) (Pipeline.ucRefs τ sig) (val2 m c) ∗ ride c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    unfold ride
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fin1 m c) ((pdats m 1 c).arrAt · cfg1.N) (left1 m c) (kept1 m c)
    rw [Pipeline.unscopedBufs_held] at hjoin
    unfold ride
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The launch's ghost state. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides along: the generator register, nothing owed. -/
theorem hride0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => ride c) : sProp 𝕄) := by
  refine Pipeline.initEach L lv fun c => ?_
  unfold ride
  iintro ⟨⟨-, HO, -, Hp, -⟩, -⟩
  imodintro
  isplitl [Hp]; · iexists _; iexact Hp
  iexists ∅; iexact HO

set_option backward.isDefEq.respectTransparency.types false in
/-- THE FRAME: every weakly fair execution from any memory with zero counters terminates, nothing faulting, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none L lv (fun _ _ => rfl) ρ (outs m) (pdats m) 0 (fun _ => iprop(emp)) u₀ hu₀
    (fun _ c => ride c) (hride0 ρ) (fun c => by unfold ride; iintro ⟨-, HO⟩; iexact HO)
    (reg0 m) (fun c => .rfl) (fun c => by rw [V2_eq]; exact .rfl)
    (reg1 m) (fun c => by rw [V2_eq]; exact .rfl) (fun c => by rw [V3_eq]; exact .rfl)

set_option backward.isDefEq.respectTransparency.types false in
/-- THE RUN WITH THE RESULT NAMED: the same, and the result array ends at what the second call's write-back leaves. -/
theorem run_named : θ_run defs (onTc (τ := τ) (main (F := F))) ⟨m, fun _ => 0, ρ⟩ (fun r => ∀ c : Dev nD,
      r.2.mem ((c.tc : Thread nD τ).loc main_v4) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ Variants.none L lv m ρ main
    (Gen.segs m Variants.none L lv (fun _ c => ride c) () (pdats m) (reg0 m) (reg1 m))
    (fun c Q => by
      rewrite [main_chain c, Pipeline.Seg.run_eq_chain,
        show (Gen.segs m Variants.none L lv (fun _ c => ride c) () (pdats m) (reg0 m) (reg1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp)) u₀ hu₀
    (T₀ := fun c => iprop(StableHlo.held (c : Thread nD τ) (Pipeline.ucRefs τ sig) (Gen.V0 m c) ∗ ride c))
    (Tₙ := fun c => StableHlo.held (c : Thread nD τ) (Pipeline.ucRefs τ sig) (val2 m c))
    (hch := fun c => ⟨.rfl, .rfl, .rfl, sep_mono .rfl (by unfold ride; iintro ⟨-, HO⟩; iexact HO)⟩)
    (hinit := ?_) (QY := fun c s => s.mem ((c.tc : Thread nD τ).loc main_v4) = resArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hride0 ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (val2 m c) s') $$ [Hh HSI]
    · isplitl [Hh] <;> iassumption
    icases Hr with ⟨%h, HSI⟩
    imodintro
    isplitr
    · ipureintro
      have hV : ∀ b, val2 m c b = Gen.V3 m (outs m) c b := fun b => (congrFun (V3_eq m c) b).symm
      exact ⟨(h (Proc.devRef .tc main_v4) (Finset.mem_filter.mpr ⟨StableHlo.devRef_mem_tcRefs main_v4, by decide⟩)).trans (Function.update_self _ _ _),
        (h (Proc.devRef .tc main_arg0) (Finset.mem_filter.mpr ⟨StableHlo.devRef_mem_tcRefs main_arg0, by decide⟩)).trans ((hV _).trans (Gen.V3_main_arg0 m (outs m) c)),
        (h (Proc.devRef .tc main_arg1) (Finset.mem_filter.mpr ⟨StableHlo.devRef_mem_tcRefs main_arg1, by decide⟩)).trans ((hV _).trans (Gen.V3_main_arg1 m (outs m) c)),
        (h (Proc.devRef .tc main_arg2) (Finset.mem_filter.mpr ⟨StableHlo.devRef_mem_tcRefs main_arg2, by decide⟩)).trans ((hV _).trans (Gen.V3_main_arg2 m (outs m) c)),
        (h (Proc.devRef .tc main_arg3) (Finset.mem_filter.mpr ⟨StableHlo.devRef_mem_tcRefs main_arg3, by decide⟩)).trans ((hV _).trans (Gen.V3_main_arg3 m (outs m) c)),
        (h (Proc.devRef .tc main_arg4) (Finset.mem_filter.mpr ⟨StableHlo.devRef_mem_tcRefs main_arg4, by decide⟩)).trans ((hV _).trans (Gen.V3_main_arg4 m (outs m) c)),
        (h (Proc.devRef .tc main_arg5) (Finset.mem_filter.mpr ⟨StableHlo.devRef_mem_tcRefs main_arg5, by decide⟩)).trans ((hV _).trans (Gen.V3_main_arg5 m (outs m) c)),
        (h (Proc.devRef .tc main_arg6) (Finset.mem_filter.mpr ⟨StableHlo.devRef_mem_tcRefs main_arg6, by decide⟩)).trans ((hV _).trans (Gen.V3_main_arg6 m (outs m) c))⟩
    · iexact HSI

end Cert.KernelIdeal.Mlp

end
-- ==== Proof.BridgeReads.lean ====
/-
  Where each window's block sits in its array, and what the arrays hold when each call is entered.

  The activation and weight windows of the first call take consecutive slabs of 480 rows: row `k` of the block
  at grid point `t` is row `480 t + k` of the array; the bias columns are whole. The second call's slabs have
  360 rows. When the first call is entered the transposed activations hold the activation matrix with its two
  coordinates exchanged, the bias columns the bias rows likewise, and the weight arrays their launch contents;
  when the second is entered the hidden-activation array holds what the first call wrote back.
-/
import proofs.«114340_g74105365725337_cont_9to1c4b_446_3_alg».proof.Proof.IdealLaunch
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.MlpBridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Mlp

variable {F : FTy → Type} [FloatOps F]

/-- Row `k` of the slab at point `t` is inside the 2880 rows. -/
theorem slab480 (t : Fin cfg0.N) (k : Fin 480) : 480 * t.val + k.val < 2880 := by
  have := lt_of_lt_of_eq t.isLt N0_eq; have := k.isLt; omega
theorem slab360 (t : Fin cfg1.N) (k : Fin 360) : 360 * t.val + k.val < 2880 := by
  have := lt_of_lt_of_eq t.isLt N1_eq; have := k.isLt; omega

/-- The first call's index maps over the grid: the slab windows step one block down per point, the others stay. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
/-- The second call's index maps over the grid. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)

section Reads

variable (V : (c : Dev nD) → (b : Ref sig .tc) → Buf (Elt F) ((c : Thread nD τ).loc b))

/-- The activation slab of the first call at point `t`: rows `480 t …` of the transposed activations. -/
theorem read0_0 (c : Dev nD) (t : Fin cfg0.N) (k : Fin 480) (j : Fin 256) :
    iblk0 V c 0 t (ix2 k j) = V c main_v0 (ix2 ⟨480 * t.val + k.val, slab480 t k⟩ j) := by
  show V c main_v0 (((cfg0.win 0).blk t).view.emb (ix2 k j)) = _
  obtain ⟨e0, e1⟩ := idx0_0 t
  refine congrArg _ (funext fun a => Fin.ext ?_)
  match a with
  | ⟨0, _⟩ => show win0_0.index t (0 : Fin 2) * 480 + 1 * k.val = 480 * t.val + k.val; omega
  | ⟨1, _⟩ => show win0_0.index t (1 : Fin 2) * 256 + 1 * j.val = j.val; omega
/-- The gate weight slab. -/
theorem read0_1 (c : Dev nD) (t : Fin cfg0.N) (k : Fin 480) (j : Fin 2880) :
    iblk0 V c 1 t (ix2 k j) = V c main_arg1 (ix2 ⟨480 * t.val + k.val, slab480 t k⟩ j) := by
  show V c main_arg1 (((cfg0.win 1).blk t).view.emb (ix2 k j)) = _
  obtain ⟨e0, e1⟩ := idx0_1 t
  refine congrArg _ (funext fun a => Fin.ext ?_)
  match a with
  | ⟨0, _⟩ => show win0_1.index t (0 : Fin 2) * 480 + 1 * k.val = 480 * t.val + k.val; omega
  | ⟨1, _⟩ => show win0_1.index t (1 : Fin 2) * 2880 + 1 * j.val = j.val; omega
/-- The up weight slab. -/
theorem read0_2 (c : Dev nD) (t : Fin cfg0.N) (k : Fin 480) (j : Fin 2880) :
    iblk0 V c 2 t (ix2 k j) = V c main_arg3 (ix2 ⟨480 * t.val + k.val, slab480 t k⟩ j) := by
  show V c main_arg3 (((cfg0.win 2).blk t).view.emb (ix2 k j)) = _
  obtain ⟨e0, e1⟩ := idx0_2 t
  refine congrArg _ (funext fun a => Fin.ext ?_)
  match a with
  | ⟨0, _⟩ => show win0_2.index t (0 : Fin 2) * 480 + 1 * k.val = 480 * t.val + k.val; omega
  | ⟨1, _⟩ => show win0_2.index t (1 : Fin 2) * 2880 + 1 * j.val = j.val; omega
/-- The gate bias column: the whole array. -/
theorem read0_3 (c : Dev nD) (t : Fin cfg0.N) (i : Fin 2880) :
    iblk0 V c 3 t (ix2 i (0 : Fin 1)) = V c main_v1 (ix2 i (0 : Fin 1)) := by
  show V c main_v1 (((cfg0.win 3).blk t).view.emb (ix2 i (0 : Fin 1))) = _
  obtain ⟨e0, e1⟩ := idx0_3 t
  refine congrArg _ (funext fun a => Fin.ext ?_)
  match a with
  | ⟨0, _⟩ => show win0_3.index t (0 : Fin 2) * 2880 + 1 * i.val = i.val; omega
  | ⟨1, _⟩ => show win0_3.index t (1 : Fin 2) * 1 + 1 * (0 : Fin 1).val = (0 : Fin 1).val; omega
/-- The up bias column: the whole array. -/
theorem read0_4 (c : Dev nD) (t : Fin cfg0.N) (i : Fin 2880) :
    iblk0 V c 4 t (ix2 i (0 : Fin 1)) = V c main_v2 (ix2 i (0 : Fin 1)) := by
  show V c main_v2 (((cfg0.win 4).blk t).view.emb (ix2 i (0 : Fin 1))) = _
  obtain ⟨e0, e1⟩ := idx0_4 t
  refine congrArg _ (funext fun a => Fin.ext ?_)
  match a with
  | ⟨0, _⟩ => show win0_4.index t (0 : Fin 2) * 2880 + 1 * i.val = i.val; omega
  | ⟨1, _⟩ => show win0_4.index t (1 : Fin 2) * 1 + 1 * (0 : Fin 1).val = (0 : Fin 1).val; omega
/-- The hidden-activation slab of the second call at point `t`: rows `360 t …`. -/
theorem read1_0 (c : Dev nD) (t : Fin cfg1.N) (k : Fin 360) (j : Fin 256) :
    iblk1 V c 0 t (ix2 k j) = V c main_v3 (ix2 ⟨360 * t.val + k.val, slab360 t k⟩ j) := by
  show V c main_v3 (((cfg1.win 0).blk t).view.emb (ix2 k j)) = _
  obtain ⟨e0, e1⟩ := idx1_0 t
  refine congrArg _ (funext fun a => Fin.ext ?_)
  match a with
  | ⟨0, _⟩ => show win1_0.index t (0 : Fin 2) * 360 + 1 * k.val = 360 * t.val + k.val; omega
  | ⟨1, _⟩ => show win1_0.index t (1 : Fin 2) * 256 + 1 * j.val = j.val; omega
/-- The down weight slab. -/
theorem read1_1 (c : Dev nD) (t : Fin cfg1.N) (k : Fin 360) (j : Fin 2880) :
    iblk1 V c 1 t (ix2 k j) = V c main_arg5 (ix2 ⟨360 * t.val + k.val, slab360 t k⟩ j) := by
  show V c main_arg5 (((cfg1.win 1).blk t).view.emb (ix2 k j)) = _
  obtain ⟨e0, e1⟩ := idx1_1 t
  refine congrArg _ (funext fun a => Fin.ext ?_)
  match a with
  | ⟨0, _⟩ => show win1_1.index t (0 : Fin 2) * 360 + 1 * k.val = 360 * t.val + k.val; omega
  | ⟨1, _⟩ => show win1_1.index t (1 : Fin 2) * 2880 + 1 * j.val = j.val; omega
/-- The down bias row: the whole array. -/
theorem read1_2 (c : Dev nD) (t : Fin cfg1.N) (j : Fin 2880) :
    iblk1 V c 2 t (ix2 (0 : Fin 1) j) = V c main_arg6 (ix2 (0 : Fin 1) j) := by
  show V c main_arg6 (((cfg1.win 2).blk t).view.emb (ix2 (0 : Fin 1) j)) = _
  obtain ⟨e0, e1⟩ := idx1_2 t
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 2880 + 1 * j.val = j.val; omega

end Reads

section Entry

variable (m : (ℓ : Loc nD τ sig) → Buf (Elt F) ℓ)

/-- The transposed activations hold the activations with the coordinates exchanged. -/
theorem ent0_xt (c : Dev nD) (k : Fin 2880) (j : Fin 256) :
    ent0 m c main_v0 (ix2 k j) = m ((c : Thread nD τ).loc main_arg0) (ix2 j k) := by
  have e : (Gen.V1 m c main_v0 : S2880x256.Idx → Elt F .f32)
      = transpose S2880x256 [1, 0] (m ((c : Thread nD τ).loc main_arg0)) Facts₀.transposes_S256x2880_S2880x256_1_0 := by
    show StableHlo.after hostOps0 (Gen.V0 m c) (Proc.devRef .tc main_v0) = _
    after_results
  show (Gen.V1 m c main_v0 : S2880x256.Idx → Elt F .f32) (ix2 k j) = _
  rw [e]
  exact transpose_ix2_apply _ _ k j
/-- The gate bias column holds the gate bias row. -/
theorem ent0_gb (c : Dev nD) (i : Fin 2880) :
    ent0 m c main_v1 (ix2 i (0 : Fin 1)) = m ((c : Thread nD τ).loc main_arg2) (ix2 (0 : Fin 1) i) := by
  have e : (Gen.V1 m c main_v1 : S2880x1.Idx → Elt F .f32)
      = transpose S2880x1 [1, 0] (m ((c : Thread nD τ).loc main_arg2)) Facts₀.transposes_S1x2880_S2880x1_1_0 := by
    show StableHlo.after hostOps0 (Gen.V0 m c) (Proc.devRef .tc main_v1) = _
    after_results
  show (Gen.V1 m c main_v1 : S2880x1.Idx → Elt F .f32) (ix2 i (0 : Fin 1)) = _
  rw [e]
  exact transpose_ix2_apply _ _ i (0 : Fin 1)
/-- The up bias column holds the up bias row. -/
theorem ent0_ub (c : Dev nD) (i : Fin 2880) :
    ent0 m c main_v2 (ix2 i (0 : Fin 1)) = m ((c : Thread nD τ).loc main_arg4) (ix2 (0 : Fin 1) i) := by
  have e : (Gen.V1 m c main_v2 : S2880x1.Idx → Elt F .f32)
      = transpose S2880x1 [1, 0] (m ((c : Thread nD τ).loc main_arg4)) Facts₀.transposes_S1x2880_S2880x1_1_0 := by
    show StableHlo.after hostOps0 (Gen.V0 m c) (Proc.devRef .tc main_v2) = _
    after_results
  show (Gen.V1 m c main_v2 : S2880x1.Idx → Elt F .f32) (ix2 i (0 : Fin 1)) = _
  rw [e]
  exact transpose_ix2_apply _ _ i (0 : Fin 1)
/-- The gate weights are as launched. -/
theorem ent0_gw (c : Dev nD) : ent0 m c main_arg1 = m ((c : Thread nD τ).loc main_arg1) :=
  (Gen.V1_of m c main_arg1 (by decide)).trans rfl
/-- The up weights are as launched. -/
theorem ent0_uw (c : Dev nD) : ent0 m c main_arg3 = m ((c : Thread nD τ).loc main_arg3) :=
  (Gen.V1_of m c main_arg3 (by decide)).trans rfl
/-- When the second call is entered the hidden-activation array holds what the first call wrote back, -/
theorem ent1_hid (c : Dev nD) : ent1 m c main_v3 = hidArr m c :=
  Function.update_self (Proc.devRef .tc main_v3 : DevRef τ sig) (hidArr m c) (Gen.V1 m c)
/-- the down weights are as launched, -/
theorem ent1_dw (c : Dev nD) : ent1 m c main_arg5 = m ((c : Thread nD τ).loc main_arg5) := by
  show Function.update (Gen.V1 m c) (Proc.devRef .tc main_v3) (hidArr m c) (Proc.devRef .tc main_arg5) = _
  rw [Function.update_of_ne (StableHlo.devRef_ne_of_ne (by decide)) (hidArr m c) (Gen.V1 m c)]
  exact (Gen.V1_of m c main_arg5 (by decide)).trans rfl
/-- and so is the down bias row. -/
theorem ent1_db (c : Dev nD) : ent1 m c main_arg6 = m ((c : Thread nD τ).loc main_arg6) := by
  show Function.update (Gen.V1 m c) (Proc.devRef .tc main_v3) (hidArr m c) (Proc.devRef .tc main_arg6) = _
  rw [Function.update_of_ne (StableHlo.devRef_ne_of_ne (by decide)) (hidArr m c) (Gen.V1 m c)]
  exact (Gen.V1_of m c main_arg6 (by decide)).trans rfl

end Entry

end Cert.KernelIdeal.MlpBridge

end
-- ==== Proof.BridgeArrays.lean ====
/-
  What the two calls leave in their output arrays.

  Each output window keeps one block that is its whole array and is written back once, after the last grid point:
  the array then holds what that point left in the block. For the first call that is the stored gate block; for
  the second the accumulated sum after the last point.
-/
import proofs.«114340_g74105365725337_cont_9to1c4b_446_3_alg».proof.Proof.IdealLaunch
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.MlpBridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Mlp

variable {F : FTy → Type} [FloatOps F]

variable (m : (ℓ : Loc nD τ sig) → Buf (Elt F) ℓ)

/-- The first call's output window sits at block index zero on both axes at every grid point. -/
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The second call's output window sits at block index zero on both axes at every grid point. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- An index of the hidden-activation array is in point `t`'s block iff each coordinate is in the block's range on its axis. -/
theorem mem_blk0_5 (t : Fin cfg0.N) (i : S2880x256.Idx) :
    i ∈ ((cfg0.win 5).blk t).view.set ↔ ∀ a : Fin 2, win0_5.index t a * S2880x256.size a ≤ (i a).val ∧ (i a).val < win0_5.index t a * S2880x256.size a + S2880x256.size a := by
  show i ∈ ((View.whole main_v3).slice (win0_5.rect t)).set ↔ _
  rw [View.set_slice_whole, Rect.mem_set_unit]
  exact Iff.rfl

/-- An index of the result array is in point `t`'s block iff each coordinate is in the block's range on its axis. -/
theorem mem_blk1_3 (t : Fin cfg1.N) (i : S256x2880.Idx) :
    i ∈ ((cfg1.win 3).blk t).view.set ↔ ∀ a : Fin 2, win1_3.index t a * S256x2880.size a ≤ (i a).val ∧ (i a).val < win1_3.index t a * S256x2880.size a + S256x2880.size a := by
  show i ∈ ((View.whole main_v4).slice (win1_3.rect t)).set ↔ _
  rw [View.set_slice_whole, Rect.mem_set_unit]
  exact Iff.rfl

/-- The hidden-activation array after the first call: the block its last point stored. -/
theorem hidArr_eq (c : Dev nD) : hidArr m c = out0 (ent0 m) c := by
  unfold hidArr
  refine (dat0 (ent0 m) c).arrAt_eq_of_cover 5 (out0 (ent0 m) c) ?_ ?_
  · -- the one block is the whole array: an element of the block sits at its own coordinates
    intro t hf
    show (cfg0.win 5).cut (grid0.coords t) ((dat0 (ent0 m) c).after 5 t) = _
    rw [after0_5]
    obtain ⟨e0, e1⟩ := idx0_5 t
    funext y
    show out0 (ent0 m) c y = out0 (ent0 m) c (((cfg0.win 5).blk t).view.emb y)
    refine congrArg _ (funext fun a => Fin.ext ?_)
    match a with
    | ⟨0, _⟩ => show (y 0).val = win0_5.index t (0 : Fin 2) * 2880 + 1 * (y 0).val; omega
    | ⟨1, _⟩ => show (y 1).val = win0_5.index t (1 : Fin 2) * 256 + 1 * (y 1).val; omega
  · -- every index of the array is in the last point's block
    intro i
    refine ⟨⟨5, by rw [N0_eq]; decide⟩, (flush0_5 _).mpr rfl, (mem_blk0_5 _ i).mpr ?_⟩
    obtain ⟨e0, e1⟩ := idx0_5 ⟨5, by rw [N0_eq]; decide⟩
    intro a
    match a with
    | ⟨0, _⟩ =>
      show win0_5.index _ (0 : Fin 2) * 2880 ≤ (i 0).val ∧ (i 0).val < win0_5.index _ (0 : Fin 2) * 2880 + 2880
      have hi : (i 0).val < 2880 := (i 0).isLt
      omega
    | ⟨1, _⟩ =>
      show win0_5.index _ (1 : Fin 2) * 256 ≤ (i 1).val ∧ (i 1).val < win0_5.index _ (1 : Fin 2) * 256 + 256
      have hi : (i 1).val < 256 := (i 1).isLt
      omega

/-- The result array after the second call: the accumulated block after the last point. -/
theorem resArr_eq (c : Dev nD) : resArr m c = acc1 (ent1 m) c 7 := by
  unfold resArr
  refine (dat1 (ent1 m) c).arrAt_eq_of_cover 3 (acc1 (ent1 m) c 7) ?_ ?_
  · -- only the last point writes back, and its one block is the whole array
    intro t hf
    have h7 : t.val = 7 := by
      have h := (flush1_3 t).mp hf
      have hN : t.val < 8 := lt_of_lt_of_eq t.isLt N1_eq
      omega
    show (cfg1.win 3).cut (grid1.coords t) ((dat1 (ent1 m) c).after 3 t) = _
    rw [after1_3, h7]
    obtain ⟨e0, e1⟩ := idx1_3 t
    funext y
    show acc1 (ent1 m) c 7 y = acc1 (ent1 m) c 7 (((cfg1.win 3).blk t).view.emb y)
    refine congrArg _ (funext fun a => Fin.ext ?_)
    match a with
    | ⟨0, _⟩ => show (y 0).val = win1_3.index t (0 : Fin 2) * 256 + 1 * (y 0).val; omega
    | ⟨1, _⟩ => show (y 1).val = win1_3.index t (1 : Fin 2) * 2880 + 1 * (y 1).val; omega
  · -- every index of the array is in the last point's block
    intro i
    refine ⟨⟨7, by rw [N1_eq]; decide⟩, (flush1_3 _).mpr rfl, (mem_blk1_3 _ i).mpr ?_⟩
    obtain ⟨e0, e1⟩ := idx1_3 ⟨7, by rw [N1_eq]; decide⟩
    intro a
    match a with
    | ⟨0, _⟩ =>
      show win1_3.index _ (0 : Fin 2) * 256 ≤ (i 0).val ∧ (i 0).val < win1_3.index _ (0 : Fin 2) * 256 + 256
      have hi : (i 0).val < 256 := (i 0).isLt
      omega
    | ⟨1, _⟩ =>
      show win1_3.index _ (1 : Fin 2) * 2880 ≤ (i 1).val ∧ (i 1).val < win1_3.index _ (1 : Fin 2) * 2880 + 2880
      have hi : (i 1).val < 2880 := (i 1).isLt
      omega

end Cert.KernelIdeal.MlpBridge

end
-- ==== Proof.GluSpec.lean ====
/-
  The function both programs compute, index by index on the extended reals, over literal shapes.

  For a token `t` and a hidden unit `i`: the gate and up projections are the sums over the model axis of the
  activation times the weight, plus the bias; the up projection is clipped to [-7, 7], the gate projection capped
  at 7; the hidden activation is  g · (1 / (1 + exp(c · g))) · (u + 1)  with `c` the literal the two programs
  share. The result at `(t, j)` is the sum over the hidden axis of the hidden activation times the down-projection
  weight, plus the bias. The literals stay as their binary words: the same word stands on both sides.
  Also here: a sum over a long axis cut into equal consecutive slabs is the sum over the slabs of the slab sums.
-/
import Idealize.ShloMosaic.PureOps.Ideal
import Idealize.ShloMosaic.Lib.ValueIdx
import Mathlib.Algebra.BigOperators.Group.Finset.Basic
import Mathlib.Algebra.BigOperators.Fin
import Mathlib.Algebra.BigOperators.Intervals

noncomputable section

open scoped BigOperators

namespace Cert.Mlp

open Idealize.ShloMosaic Idealize.ShloMosaic.ValueIdx

/-- The clipped-SiLU gate on the extended reals, from a gate projection `g` and an up projection `u`. -/
def gate (g u : EReal) : EReal :=
  (min g (Ideal.ofBits .f32 0x40E00000#32)
      * Ideal.div (Ideal.ofBits .f32 0x3F800000#32)
          (Ideal.ofBits .f32 0x3F800000#32
            + Ideal.exp (Ideal.ofBits .f32 0xBFD9DB23#32 * min g (Ideal.ofBits .f32 0x40E00000#32))))
    * (min (Ideal.ofBits .f32 0x40E00000#32) (max (Ideal.ofBits .f32 0xC0E00000#32) u)
        + Ideal.ofBits .f32 0x3F800000#32)

abbrev T256x2880 : Shape := ⟨2, ![256, 2880]⟩
abbrev T2880x2880 : Shape := ⟨2, ![2880, 2880]⟩
abbrev T1x2880 : Shape := ⟨2, ![1, 2880]⟩

/-- The hidden activation of token `t` at hidden unit `i`. -/
def hidden (x : T256x2880.Idx → EReal) (gw : T2880x2880.Idx → EReal) (gb : T1x2880.Idx → EReal)
    (uw : T2880x2880.Idx → EReal) (ub : T1x2880.Idx → EReal) (t : Fin 256) (i : Fin 2880) : EReal :=
  gate ((∑ k : Fin 2880, x (ix2 t k) * gw (ix2 k i)) + gb (ix2 0 i))
       ((∑ k : Fin 2880, x (ix2 t k) * uw (ix2 k i)) + ub (ix2 0 i))

/-- The result array, index by index. -/
def mlpOut (x : T256x2880.Idx → EReal) (gw : T2880x2880.Idx → EReal) (gb : T1x2880.Idx → EReal)
    (uw : T2880x2880.Idx → EReal) (ub : T1x2880.Idx → EReal) (dw : T2880x2880.Idx → EReal)
    (db : T1x2880.Idx → EReal) : T256x2880.Idx → EReal :=
  fun j => (∑ i : Fin 2880, hidden x gw gb uw ub (j 0) i * dw (ix2 i (j 1))) + db (ix2 0 (j 1))

/-- A sum over 2880 consecutive terms, cut into 6 slabs of 480. -/
theorem sum_slabs_480 (f : ℕ → EReal) :
    (∑ t ∈ Finset.range 6, ∑ k : Fin 480, f (480 * t + k.val)) = ∑ k : Fin 2880, f k.val := by
  -- the first B slabs together are the first 480 * B terms
  have key : ∀ B : ℕ, (∑ t ∈ Finset.range B, ∑ k : Fin 480, f (480 * t + k.val))
      = ∑ k ∈ Finset.range (480 * B), f k := by
    intro B
    induction B with
    | zero => rw [Nat.mul_zero, Finset.range_zero, Finset.sum_empty, Finset.sum_empty]
    | succ B ih =>
      rw [Finset.sum_range_succ, ih, Nat.mul_succ, Finset.sum_range_add,
        Fin.sum_univ_eq_sum_range (fun k => f (480 * B + k)) 480]
  exact (key 6).trans (Fin.sum_univ_eq_sum_range f 2880).symm

/-- A sum over 2880 consecutive terms, cut into 8 slabs of 360. -/
theorem sum_slabs_360 (f : ℕ → EReal) :
    (∑ t ∈ Finset.range 8, ∑ k : Fin 360, f (360 * t + k.val)) = ∑ k : Fin 2880, f k.val := by
  -- the first B slabs together are the first 360 * B terms
  have key : ∀ B : ℕ, (∑ t ∈ Finset.range B, ∑ k : Fin 360, f (360 * t + k.val))
      = ∑ k ∈ Finset.range (360 * B), f k := by
    intro B
    induction B with
    | zero => rw [Nat.mul_zero, Finset.range_zero, Finset.sum_empty, Finset.sum_empty]
    | succ B ih =>
      rw [Finset.sum_range_succ, ih, Nat.mul_succ, Finset.sum_range_add,
        Fin.sum_univ_eq_sum_range (fun k => f (360 * B + k)) 360]
  exact (key 8).trans (Fin.sum_univ_eq_sum_range f 2880).symm

end Cert.Mlp

end
-- ==== Proof.Stage1Value.lean ====
/-
  Stage 1 at an index, on the extended reals: each accumulator after grid point `n` is the sum over the slabs
  0..n of the slab's contraction of weight times activation, and the stored block is the gate of the two
  finished sums with the bias columns added.
-/
import proofs.«114340_g74105365725337_cont_9to1c4b_446_3_alg».proof.Proof.IdealFolds
import proofs.«114340_g74105365725337_cont_9to1c4b_446_3_alg».proof.Proof.GluSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MlpValue

open Idealize.ShloMosaic Idealize.ShloMosaic.ValueIdx Cert.KernelIdeal Cert.KernelIdeal.Gen Cert.KernelIdeal.Mlp Cert.Mlp

/-! ## The slab product at an index

The product contracts axis 0 of the weight slab (its left operand) with axis 0 of the activation slab; the
result's row is the weight slab's column and the result's column is the activation slab's column. -/

/-- On the weight slab's contracted axis the operand index is the contraction coordinate. -/
theorem lhs_s1dot_0 (j : S2880x256.Idx) (q : dot_S480x2880_S480x256_S2880x256_0_0_1_1_n_n.contr.Idx) :
    (dot_S480x2880_S480x256_S2880x256_0_0_1_1_n_n.lhsIdx j q 0).val = (q ⟨0, by decide⟩).val :=
  dot_S480x2880_S480x256_S2880x256_0_0_1_1_n_n.lhsIdx_val_of_single rfl j q
/-- On the weight slab's kept axis the operand index is the result's row. -/
theorem lhs_s1dot_1 (j : S2880x256.Idx) (q : dot_S480x2880_S480x256_S2880x256_0_0_1_1_n_n.contr.Idx) :
    (dot_S480x2880_S480x256_S2880x256_0_0_1_1_n_n.lhsIdx j q 1).val = (j 0).val := by
  unfold DotDims.lhsIdx
  rw [dif_neg (show ¬(1 : Fin S480x2880.rank) ∈ dot_S480x2880_S480x256_S2880x256_0_0_1_1_n_n.lhsBatch by decide), dif_pos (show (1 : Fin S480x2880.rank) ∈ dot_S480x2880_S480x256_S2880x256_0_0_1_1_n_n.lhsNonContracting by decide)]
  rfl
/-- On the activation slab's contracted axis the operand index is the contraction coordinate. -/
theorem rhs_s1dot_0 (j : S2880x256.Idx) (q : dot_S480x2880_S480x256_S2880x256_0_0_1_1_n_n.contr.Idx) :
    (dot_S480x2880_S480x256_S2880x256_0_0_1_1_n_n.rhsIdx j q 0).val = (q ⟨0, by decide⟩).val :=
  dot_S480x2880_S480x256_S2880x256_0_0_1_1_n_n.rhsIdx_val_of_single rfl j q
/-- On the activation slab's kept axis the operand index is the result's column. -/
theorem rhs_s1dot_1 (j : S2880x256.Idx) (q : dot_S480x2880_S480x256_S2880x256_0_0_1_1_n_n.contr.Idx) :
    (dot_S480x2880_S480x256_S2880x256_0_0_1_1_n_n.rhsIdx j q 1).val = (j 1).val := by
  unfold DotDims.rhsIdx
  rw [dif_neg (show ¬(1 : Fin S480x256.rank) ∈ dot_S480x2880_S480x256_S2880x256_0_0_1_1_n_n.rhsBatch by decide), dif_pos (show (1 : Fin S480x256.rank) ∈ dot_S480x2880_S480x256_S2880x256_0_0_1_1_n_n.rhsNonContracting by decide)]
  rfl

/-- The product of a weight slab `w` and an activation slab `x` into the zero block, at `(i, t)`: the sum over the
    slab's 480 rows of the weight at `(k, i)` times the activation at `(k, t)`. -/
theorem slab_product_apply (x : FVec Ideal S480x256 .f32) (w : FVec Ideal S480x2880 .f32) (i : Fin 2880) (t : Fin 256) :
    matmul dot_S480x2880_S480x256_S2880x256_0_0_1_1_n_n none w x (constant (F := Ideal) S2880x256 .f32 0x00000000#32) (ix2 i t)
      = ∑ k : Fin 480, w (ix2 k i) * x (ix2 k t) := by
  refine (Ideal.matmul_constant_zero_apply dot_S480x2880_S480x256_S2880x256_0_0_1_1_n_n none w x (ix2 i t)).trans ?_
  rw [← Equiv.sum_comp (contrEquiv1 dot_S480x2880_S480x256_S2880x256_0_0_1_1_n_n 480 rfl rfl).symm]
  refine Finset.sum_congr rfl fun k _ => ?_
  have hk := contrEquiv1_symm_val dot_S480x2880_S480x256_S2880x256_0_0_1_1_n_n 480 rfl rfl k
  have el : dot_S480x2880_S480x256_S2880x256_0_0_1_1_n_n.lhsIdx (ix2 i t) ((contrEquiv1 dot_S480x2880_S480x256_S2880x256_0_0_1_1_n_n 480 rfl rfl).symm k) = ix2 k i := funext fun a => Fin.ext (by
    match a with
    | ⟨0, _⟩ => exact (lhs_s1dot_0 _ _).trans hk
    | ⟨1, _⟩ => exact lhs_s1dot_1 _ _)
  have er : dot_S480x2880_S480x256_S2880x256_0_0_1_1_n_n.rhsIdx (ix2 i t) ((contrEquiv1 dot_S480x2880_S480x256_S2880x256_0_0_1_1_n_n 480 rfl rfl).symm k) = ix2 k t := funext fun a => Fin.ext (by
    match a with
    | ⟨0, _⟩ => exact (rhs_s1dot_0 _ _).trans hk
    | ⟨1, _⟩ => exact rhs_s1dot_1 _ _)
  rw [el, er]

/-- The gate projection's slab product at `(i, t)`. -/
theorem k0_pay2_apply (x : FVec Ideal S480x256 .f32) (w : FVec Ideal S480x2880 .f32) (i : Fin 2880) (t : Fin 256) :
    k0_pay2 (F := Ideal) x w (ix2 i t) = ∑ k : Fin 480, w (ix2 k i) * x (ix2 k t) := by
  unfold k0_pay2 k0_pay1
  rw [shapeCast_self]
  exact slab_product_apply x w i t

/-- The up projection's slab product at `(i, t)`. -/
theorem k0_pay3_apply (x : FVec Ideal S480x256 .f32) (w : FVec Ideal S480x2880 .f32) (i : Fin 2880) (t : Fin 256) :
    k0_pay3 (F := Ideal) x w (ix2 i t) = ∑ k : Fin 480, w (ix2 k i) * x (ix2 k t) := by
  unfold k0_pay3 k0_pay1
  rw [shapeCast_self]
  exact slab_product_apply x w i t

/-! ## What each grid point stores into the accumulators -/

/-- Point 0 stores the gate slab product. -/
theorem k0_pay4_apply (x : FVec Ideal S480x256 .f32) (w : FVec Ideal S480x2880 .f32) (i : Fin 2880) (t : Fin 256) :
    k0_pay4 (F := Ideal) x w (ix2 i t) = ∑ k : Fin 480, w (ix2 k i) * x (ix2 k t) := by
  unfold k0_pay4
  rw [shapeCast_self]
  exact k0_pay2_apply x w i t

/-- Point 0 stores the up slab product. -/
theorem k0_pay5_apply (x : FVec Ideal S480x256 .f32) (w : FVec Ideal S480x2880 .f32) (i : Fin 2880) (t : Fin 256) :
    k0_pay5 (F := Ideal) x w (ix2 i t) = ∑ k : Fin 480, w (ix2 k i) * x (ix2 k t) := by
  unfold k0_pay5
  rw [shapeCast_self]
  exact k0_pay3_apply x w i t

/-- A later point adds its gate slab product to what the accumulator held. -/
theorem k0_pay6_apply (x : FVec Ideal S480x256 .f32) (w : FVec Ideal S480x2880 .f32) (acc : FVec Ideal S2880x256 .f32)
    (i : Fin 2880) (t : Fin 256) :
    k0_pay6 (F := Ideal) x w acc (ix2 i t) = acc (ix2 i t) + ∑ k : Fin 480, w (ix2 k i) * x (ix2 k t) := by
  unfold k0_pay6
  rw [shapeCast_self, addf_apply, k0_pay2_apply]

/-- A later point adds its up slab product to what the accumulator held. -/
theorem k0_pay7_apply (x : FVec Ideal S480x256 .f32) (w : FVec Ideal S480x2880 .f32) (acc : FVec Ideal S2880x256 .f32)
    (i : Fin 2880) (t : Fin 256) :
    k0_pay7 (F := Ideal) x w acc (ix2 i t) = acc (ix2 i t) + ∑ k : Fin 480, w (ix2 k i) * x (ix2 k t) := by
  unfold k0_pay7
  rw [shapeCast_self, addf_apply, k0_pay3_apply]

/-- The gate accumulator after point `n`, at hidden unit `i` and token `t`. -/
theorem s1acc_fst_apply (xb : ℕ → S480x256.Idx → EReal) (gw uw : ℕ → S480x2880.Idx → EReal) (n : ℕ)
    (i : Fin 2880) (t : Fin 256) :
    (s1acc (F := Ideal) xb gw uw n).1 (ix2 i t)
      = ∑ s ∈ Finset.range (n + 1), ∑ k : Fin 480, gw s (ix2 k i) * xb s (ix2 k t) := by
  induction n with
  | zero =>
    rw [s1acc_zero, Finset.sum_range_one]
    exact k0_pay4_apply (xb 0) (gw 0) i t
  | succ n ih =>
    rw [s1acc_succ, Finset.sum_range_succ _ (n + 1), ← ih]
    exact k0_pay6_apply (xb (n + 1)) (gw (n + 1)) (s1acc (F := Ideal) xb gw uw n).1 i t

/-- The up accumulator after point `n`, at hidden unit `i` and token `t`. -/
theorem s1acc_snd_apply (xb : ℕ → S480x256.Idx → EReal) (gw uw : ℕ → S480x2880.Idx → EReal) (n : ℕ)
    (i : Fin 2880) (t : Fin 256) :
    (s1acc (F := Ideal) xb gw uw n).2 (ix2 i t)
      = ∑ s ∈ Finset.range (n + 1), ∑ k : Fin 480, uw s (ix2 k i) * xb s (ix2 k t) := by
  induction n with
  | zero =>
    rw [s1acc_zero, Finset.sum_range_one]
    exact k0_pay5_apply (xb 0) (uw 0) i t
  | succ n ih =>
    rw [s1acc_succ, Finset.sum_range_succ _ (n + 1), ← ih]
    exact k0_pay7_apply (xb (n + 1)) (uw (n + 1)) (s1acc (F := Ideal) xb gw uw n).2 i t

/-! ## The gate -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a block at an index is the exponential of the element. -/
theorem exp_apply {s : Shape} {φ : FTy} (a : FVec Ideal s φ) (i : s.Idx) : exp a i = Ideal.exp (a i) := rfl

/-- What the last point stores, at `(i, t)`: the gate of the two accumulators' elements with the bias columns'
    row `i` added. -/
theorem k0_pay8_apply (g : FVec Ideal S2880x256 .f32) (gb : FVec Ideal S2880x1 .f32) (u : FVec Ideal S2880x256 .f32)
    (ub : FVec Ideal S2880x1 .f32) (i : Fin 2880) (t : Fin 256) :
    k0_pay8 (F := Ideal) g gb u ub (ix2 i t)
      = gate (g (ix2 i t) + gb (ix2 i (0 : Fin 1))) (u (ix2 i t) + ub (ix2 i (0 : Fin 1))) := by
  unfold k0_pay8 gate
  rw [shapeCast_self gb, shapeCast_self ub]
  simp only [mulf_apply, addf_apply, minimumf_apply, maximumf_apply, divf_apply, exp_apply, broadcast_apply,
    broadcastTo_a1_ab_apply]
  rfl

/-- The block stage 1 stores, at hidden unit `i` and token `t`. -/
theorem s1out_apply (xb : ℕ → S480x256.Idx → EReal) (gw uw : ℕ → S480x2880.Idx → EReal)
    (gbias ubias : S2880x1.Idx → EReal) (i : Fin 2880) (t : Fin 256) :
    s1out (F := Ideal) xb gw uw gbias ubias (ix2 i t)
      = gate ((∑ s ∈ Finset.range 6, ∑ k : Fin 480, gw s (ix2 k i) * xb s (ix2 k t)) + gbias (ix2 i 0))
             ((∑ s ∈ Finset.range 6, ∑ k : Fin 480, uw s (ix2 k i) * xb s (ix2 k t)) + ubias (ix2 i 0)) := by
  unfold s1out
  rw [← s1acc_fst_apply xb gw uw 5 i t, ← s1acc_snd_apply xb gw uw 5 i t]
  exact k0_pay8_apply (s1acc (F := Ideal) xb gw uw 5).1 gbias (s1acc (F := Ideal) xb gw uw 5).2 ubias i t

end Cert.KernelIdeal.MlpValue

end
-- ==== Proof.Stage2Value.lean ====
/-
  Stage 2 at an index, on the extended reals: the output block after grid point `n` is the sum over the slabs
  0..n of the slab's contraction of hidden activation times weight, plus the bias row (added once, at point 0).
-/
import proofs.«114340_g74105365725337_cont_9to1c4b_446_3_alg».proof.Proof.IdealFolds
import proofs.«114340_g74105365725337_cont_9to1c4b_446_3_alg».proof.Proof.GluSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MlpValue

open Idealize.ShloMosaic Idealize.ShloMosaic.ValueIdx Cert.KernelIdeal Cert.KernelIdeal.Gen Cert.KernelIdeal.Mlp Cert.Mlp

/-! ## The operand indices of the slab product

Both operands contract their axis 0; the left operand's axis 1 is the result's axis 0 (the token), the right
operand's axis 1 is the result's axis 1 (the output unit). -/

/-- The left operand's axis 0 is the contraction coordinate. -/
theorem lhs_s2dot_0 (i : S256x2880.Idx) (q : dot_S360x256_S360x2880_S256x2880_0_0_1_1_n_n.contr.Idx) :
    (dot_S360x256_S360x2880_S256x2880_0_0_1_1_n_n.lhsIdx i q 0).val = (q ⟨0, by decide⟩).val :=
  dot_S360x256_S360x2880_S256x2880_0_0_1_1_n_n.lhsIdx_val_of_single rfl i q

/-- The left operand's axis 1 is the result's axis 0. -/
theorem lhs_s2dot_1 (i : S256x2880.Idx) (q : dot_S360x256_S360x2880_S256x2880_0_0_1_1_n_n.contr.Idx) :
    (dot_S360x256_S360x2880_S256x2880_0_0_1_1_n_n.lhsIdx i q 1).val = (i 0).val := by
  unfold DotDims.lhsIdx
  rw [dif_neg (show ¬(1 : Fin S360x256.rank) ∈ dot_S360x256_S360x2880_S256x2880_0_0_1_1_n_n.lhsBatch by decide), dif_pos (show (1 : Fin S360x256.rank) ∈ dot_S360x256_S360x2880_S256x2880_0_0_1_1_n_n.lhsNonContracting by decide)]
  rfl

/-- The right operand's axis 0 is the contraction coordinate. -/
theorem rhs_s2dot_0 (i : S256x2880.Idx) (q : dot_S360x256_S360x2880_S256x2880_0_0_1_1_n_n.contr.Idx) :
    (dot_S360x256_S360x2880_S256x2880_0_0_1_1_n_n.rhsIdx i q 0).val = (q ⟨0, by decide⟩).val :=
  dot_S360x256_S360x2880_S256x2880_0_0_1_1_n_n.rhsIdx_val_of_single rfl i q

/-- The right operand's axis 1 is the result's axis 1. -/
theorem rhs_s2dot_1 (i : S256x2880.Idx) (q : dot_S360x256_S360x2880_S256x2880_0_0_1_1_n_n.contr.Idx) :
    (dot_S360x256_S360x2880_S256x2880_0_0_1_1_n_n.rhsIdx i q 1).val = (i 1).val := by
  unfold DotDims.rhsIdx
  rw [dif_neg (show ¬(1 : Fin S360x2880.rank) ∈ dot_S360x256_S360x2880_S256x2880_0_0_1_1_n_n.rhsBatch by decide), dif_pos (show (1 : Fin S360x2880.rank) ∈ dot_S360x256_S360x2880_S256x2880_0_0_1_1_n_n.rhsNonContracting by decide)]
  rfl

/-- The slab product at token `t` and output unit `j`: the sum over the slab's 360 rows of the hidden
    activation at `(k, t)` times the weight at `(k, j)`. -/
theorem k1_pay1_apply (h : S360x256.Idx → EReal) (w : S360x2880.Idx → EReal) (t : Fin 256) (j : Fin 2880) :
    k1_pay1 (F := Ideal) h w (ix2 t j) = ∑ k : Fin 360, h (ix2 k t) * w (ix2 k j) := by
  unfold k1_pay1
  rw [shapeCast_self]
  simp only [matmul]
  rw [Ideal.matmul_constant_zero_apply, ← Equiv.sum_comp (contrEquiv1 dot_S360x256_S360x2880_S256x2880_0_0_1_1_n_n 360 rfl rfl).symm]
  refine Finset.sum_congr rfl fun k _ => ?_
  have hk := contrEquiv1_symm_val dot_S360x256_S360x2880_S256x2880_0_0_1_1_n_n 360 rfl rfl k
  have el : dot_S360x256_S360x2880_S256x2880_0_0_1_1_n_n.lhsIdx (ix2 t j) ((contrEquiv1 dot_S360x256_S360x2880_S256x2880_0_0_1_1_n_n 360 rfl rfl).symm k) = ix2 k t := funext fun a => Fin.ext (by
    match a with
    | ⟨0, _⟩ => exact (lhs_s2dot_0 _ _).trans hk
    | ⟨1, _⟩ => exact lhs_s2dot_1 _ _)
  have er : dot_S360x256_S360x2880_S256x2880_0_0_1_1_n_n.rhsIdx (ix2 t j) ((contrEquiv1 dot_S360x256_S360x2880_S256x2880_0_0_1_1_n_n 360 rfl rfl).symm k) = ix2 k j := funext fun a => Fin.ext (by
    match a with
    | ⟨0, _⟩ => exact (rhs_s2dot_0 _ _).trans hk
    | ⟨1, _⟩ => exact rhs_s2dot_1 _ _)
  rw [el, er]

/-- The first point's store: the slab product plus the bias row at `j`. -/
theorem k1_pay2_apply (h : S360x256.Idx → EReal) (w : S360x2880.Idx → EReal) (b : S1x2880.Idx → EReal)
    (t : Fin 256) (j : Fin 2880) :
    k1_pay2 (F := Ideal) h w b (ix2 t j) = (∑ k : Fin 360, h (ix2 k t) * w (ix2 k j)) + b (ix2 0 j) := by
  unfold k1_pay2
  rw [addf_apply, k1_pay1_apply, broadcastTo_1b_ab_apply]

/-- A later point's store: what the block held plus the slab product. -/
theorem k1_pay3_apply (h : S360x256.Idx → EReal) (w : S360x2880.Idx → EReal) (acc : S256x2880.Idx → EReal)
    (t : Fin 256) (j : Fin 2880) :
    k1_pay3 (F := Ideal) h w acc (ix2 t j) = acc (ix2 t j) + ∑ k : Fin 360, h (ix2 k t) * w (ix2 k j) := by
  unfold k1_pay3
  rw [shapeCast_self, addf_apply, k1_pay1_apply]

/-- The output block after point `n`, at token `t` and output unit `j`. -/
theorem s2acc_apply (hb : ℕ → S360x256.Idx → EReal) (dw : ℕ → S360x2880.Idx → EReal) (bias : S1x2880.Idx → EReal)
    (n : ℕ) (t : Fin 256) (j : Fin 2880) :
    s2acc (F := Ideal) hb dw bias n (ix2 t j)
      = (∑ s ∈ Finset.range (n + 1), ∑ k : Fin 360, hb s (ix2 k t) * dw s (ix2 k j)) + bias (ix2 0 j) := by
  induction n with
  | zero =>
    rw [s2acc_zero, k1_pay2_apply, Finset.sum_range_one]
  | succ n ih =>
    rw [s2acc_succ, k1_pay3_apply, ih, Finset.sum_range_succ _ (n + 1), add_right_comm]

end Cert.KernelIdeal.MlpValue

end
-- ==== Proof.BridgeFinal.lean ====
/-
  The result array is the specification of the launch arguments.

  Stage 1's stored block at hidden unit `i` and token `t` is the gate of two sums over the six slabs; each slab
  row `k` of slab `s` is row `480 s + k` of the weight array and of the transposed activations, so the six slab sums
  together are the sum over the whole model axis, and each product commutes into the order the specification
  writes. The bias columns are the bias rows. Stage 2's last block at token `t` and output unit `j` is the sum
  over the eight slabs of 360 hidden units, plus the bias row: the sum over the whole hidden axis.
  Only commutativity of the product and regrouping of sums on the extended reals are used.
-/
import proofs.«114340_g74105365725337_cont_9to1c4b_446_3_alg».proof.Proof.BridgeReads
import proofs.«114340_g74105365725337_cont_9to1c4b_446_3_alg».proof.Proof.BridgeArrays
import proofs.«114340_g74105365725337_cont_9to1c4b_446_3_alg».proof.Proof.Stage1Value
import proofs.«114340_g74105365725337_cont_9to1c4b_446_3_alg».proof.Proof.Stage2Value
import proofs.«114340_g74105365725337_cont_9to1c4b_446_3_alg».proof.Proof.GluSpec

set_option maxRecDepth 16384

noncomputable section

open scoped BigOperators

namespace Cert.KernelIdeal.MlpBridge

open Idealize.ShloMosaic Idealize.ShloMosaic.TcCoe Idealize.ShloMosaic.ValueIdx
open Idealize.SL Idealize.SL.Sem
open Cert.KernelIdeal Cert.KernelIdeal.Gen Cert.KernelIdeal.Mlp Cert.KernelIdeal.MlpValue Cert.Mlp

/-- A family over the long axis read at a natural number: its term inside the axis, zero past it. -/
def onNat (G : Fin 2880 → EReal) (κ : ℕ) : EReal := if hκ : κ < 2880 then G ⟨κ, hκ⟩ else 0

theorem onNat_lt (G : Fin 2880 → EReal) {κ : ℕ} (hκ : κ < 2880) : onNat G κ = G ⟨κ, hκ⟩ := dif_pos hκ

/-- Six slab sums whose terms are the terms `480 s + k` of one family over the long axis make its whole sum. -/
theorem sum_of_slabs_480 (G : Fin 2880 → EReal) (B : ℕ → Fin 480 → EReal)
    (h : ∀ s (hs : s < 6) (k : Fin 480), B s k = G ⟨480 * s + k.val, by have := k.isLt; omega⟩) :
    (∑ s ∈ Finset.range 6, ∑ k : Fin 480, B s k) = ∑ κ : Fin 2880, G κ := by
  have h1 : (∑ s ∈ Finset.range 6, ∑ k : Fin 480, B s k)
      = ∑ s ∈ Finset.range 6, ∑ k : Fin 480, onNat G (480 * s + k.val) :=
    Finset.sum_congr rfl fun s hs => Finset.sum_congr rfl fun k _ => by
      have hs' := Finset.mem_range.mp hs
      have hk := k.isLt
      rw [h s hs' k]
      exact (onNat_lt G (show 480 * s + k.val < 2880 by omega)).symm
  rw [h1, sum_slabs_480 (onNat G)]
  exact Finset.sum_congr rfl fun κ _ => onNat_lt G κ.isLt

/-- Eight slab sums of 360 terms likewise. -/
theorem sum_of_slabs_360 (G : Fin 2880 → EReal) (B : ℕ → Fin 360 → EReal)
    (h : ∀ s (hs : s < 8) (k : Fin 360), B s k = G ⟨360 * s + k.val, by have := k.isLt; omega⟩) :
    (∑ s ∈ Finset.range 8, ∑ k : Fin 360, B s k) = ∑ κ : Fin 2880, G κ := by
  have h1 : (∑ s ∈ Finset.range 8, ∑ k : Fin 360, B s k)
      = ∑ s ∈ Finset.range 8, ∑ k : Fin 360, onNat G (360 * s + k.val) :=
    Finset.sum_congr rfl fun s hs => Finset.sum_congr rfl fun k _ => by
      have hs' := Finset.mem_range.mp hs
      have hk := k.isLt
      rw [h s hs' k]
      exact (onNat_lt G (show 360 * s + k.val < 2880 by omega)).symm
  rw [h1, sum_slabs_360 (onNat G)]
  exact Finset.sum_congr rfl fun κ _ => onNat_lt G κ.isLt

variable (m : (ℓ : Loc nD τ sig) → Buf (Elt Ideal) ℓ)

/-! ## The launch arguments as arrays of extended reals -/

/-- Argument 0 on core `c`. -/
abbrev aX (c : Dev nD) : S256x2880.Idx → EReal := m ((c : Thread nD τ).loc main_arg0)
/-- Argument 1 on core `c`. -/
abbrev aGw (c : Dev nD) : S2880x2880.Idx → EReal := m ((c : Thread nD τ).loc main_arg1)
/-- Argument 2 on core `c`. -/
abbrev aGb (c : Dev nD) : S1x2880.Idx → EReal := m ((c : Thread nD τ).loc main_arg2)
/-- Argument 3 on core `c`. -/
abbrev aUw (c : Dev nD) : S2880x2880.Idx → EReal := m ((c : Thread nD τ).loc main_arg3)
/-- Argument 4 on core `c`. -/
abbrev aUb (c : Dev nD) : S1x2880.Idx → EReal := m ((c : Thread nD τ).loc main_arg4)
/-- Argument 5 on core `c`. -/
abbrev aDw (c : Dev nD) : S2880x2880.Idx → EReal := m ((c : Thread nD τ).loc main_arg5)
/-- Argument 6 on core `c`. -/
abbrev aDb (c : Dev nD) : S1x2880.Idx → EReal := m ((c : Thread nD τ).loc main_arg6)

theorem pt0_lt (s : ℕ) (hs : s < 6) : (pt0 s).val = s := Nat.mod_eq_of_lt hs
theorem pt1_lt (s : ℕ) (hs : s < 8) : (pt1 s).val = s := Nat.mod_eq_of_lt hs

/-! ## The first call's slabs, in the launch arguments -/

/-- Row `k` of activation slab `s`, at token `t`: the activation of token `t` at model coordinate `480 s + k`. -/
theorem xb0_apply (c : Dev nD) (s : ℕ) (hs : s < 6) (k : Fin 480) (t : Fin 256) :
    xb0 (ent0 m) c s (ix2 k t) = (aX m c) (ix2 t ⟨480 * s + k.val, by have := k.isLt; omega⟩) := by
  unfold xb0
  rw [read0_0, ent0_xt]
  exact congrArg (fun r => (aX m c) (ix2 t r)) (Fin.ext (by show 480 * (pt0 s).val + k.val = 480 * s + k.val; rw [pt0_lt s hs]))

/-- Row `k` of gate weight slab `s`, at hidden unit `i`. -/
theorem gw0_apply (c : Dev nD) (s : ℕ) (hs : s < 6) (k : Fin 480) (i : Fin 2880) :
    gw0 (ent0 m) c s (ix2 k i) = (aGw m c) (ix2 ⟨480 * s + k.val, by have := k.isLt; omega⟩ i) := by
  unfold gw0
  rw [read0_1, ent0_gw]
  exact congrArg (fun r => (aGw m c) (ix2 r i)) (Fin.ext (by show 480 * (pt0 s).val + k.val = 480 * s + k.val; rw [pt0_lt s hs]))

/-- Row `k` of up weight slab `s`, at hidden unit `i`. -/
theorem uw0_apply (c : Dev nD) (s : ℕ) (hs : s < 6) (k : Fin 480) (i : Fin 2880) :
    uw0 (ent0 m) c s (ix2 k i) = (aUw m c) (ix2 ⟨480 * s + k.val, by have := k.isLt; omega⟩ i) := by
  unfold uw0
  rw [read0_2, ent0_uw]
  exact congrArg (fun r => (aUw m c) (ix2 r i)) (Fin.ext (by show 480 * (pt0 s).val + k.val = 480 * s + k.val; rw [pt0_lt s hs]))

theorem gbias0_apply (c : Dev nD) (i : Fin 2880) : gbias0 (ent0 m) c (ix2 i (0 : Fin 1)) = (aGb m c) (ix2 (0 : Fin 1) i) := by
  unfold gbias0; rw [read0_3, ent0_gb]
theorem ubias0_apply (c : Dev nD) (i : Fin 2880) : ubias0 (ent0 m) c (ix2 i (0 : Fin 1)) = (aUb m c) (ix2 (0 : Fin 1) i) := by
  unfold ubias0; rw [read0_4, ent0_ub]

/-- The hidden-activation array the first call leaves, at hidden unit `i` and token `t`, is the specification's
    hidden activation of the launch arguments. -/
theorem hid_apply (c : Dev nD) (i : Fin 2880) (t : Fin 256) :
    hidArr m c (ix2 i t) = Cert.Mlp.hidden (aX m c) (aGw m c) (aGb m c) (aUw m c) (aUb m c) t i := by
  rw [hidArr_eq]
  unfold out0
  refine (s1out_apply _ _ _ _ _ i t).trans ?_
  unfold Cert.Mlp.hidden
  have hg : (∑ s ∈ Finset.range 6, ∑ k : Fin 480, gw0 (ent0 m) c s (ix2 k i) * xb0 (ent0 m) c s (ix2 k t))
      = ∑ κ : Fin 2880, (aX m c) (ix2 t κ) * (aGw m c) (ix2 κ i) :=
    sum_of_slabs_480 (fun κ => (aX m c) (ix2 t κ) * (aGw m c) (ix2 κ i)) _ fun s hs k => by
      rw [gw0_apply m c s hs k i, xb0_apply m c s hs k t]; exact mul_comm _ _
  have hu : (∑ s ∈ Finset.range 6, ∑ k : Fin 480, uw0 (ent0 m) c s (ix2 k i) * xb0 (ent0 m) c s (ix2 k t))
      = ∑ κ : Fin 2880, (aX m c) (ix2 t κ) * (aUw m c) (ix2 κ i) :=
    sum_of_slabs_480 (fun κ => (aX m c) (ix2 t κ) * (aUw m c) (ix2 κ i)) _ fun s hs k => by
      rw [uw0_apply m c s hs k i, xb0_apply m c s hs k t]; exact mul_comm _ _
  rw [hg, hu, gbias0_apply, ubias0_apply]

/-! ## The second call's slabs -/

/-- Row `k` of hidden slab `s`, at token `t`: the hidden activation of token `t` at hidden unit `360 s + k`. -/
theorem hb1_apply (c : Dev nD) (s : ℕ) (hs : s < 8) (k : Fin 360) (t : Fin 256) :
    hb1 (ent1 m) c s (ix2 k t)
      = Cert.Mlp.hidden (aX m c) (aGw m c) (aGb m c) (aUw m c) (aUb m c) t ⟨360 * s + k.val, by have := k.isLt; omega⟩ := by
  unfold hb1
  rw [read1_0, ent1_hid, hid_apply]
  exact congrArg (fun r => Cert.Mlp.hidden (aX m c) (aGw m c) (aGb m c) (aUw m c) (aUb m c) t r) (Fin.ext (by show 360 * (pt1 s).val + k.val = 360 * s + k.val; rw [pt1_lt s hs]))

/-- Row `k` of down weight slab `s`, at output unit `j`. -/
theorem dw1_apply (c : Dev nD) (s : ℕ) (hs : s < 8) (k : Fin 360) (j : Fin 2880) :
    dw1 (ent1 m) c s (ix2 k j) = (aDw m c) (ix2 ⟨360 * s + k.val, by have := k.isLt; omega⟩ j) := by
  unfold dw1
  rw [read1_1, ent1_dw]
  exact congrArg (fun r => (aDw m c) (ix2 r j)) (Fin.ext (by show 360 * (pt1 s).val + k.val = 360 * s + k.val; rw [pt1_lt s hs]))

theorem bias1_apply (c : Dev nD) (j : Fin 2880) : bias1 (ent1 m) c (ix2 (0 : Fin 1) j) = (aDb m c) (ix2 (0 : Fin 1) j) := by
  unfold bias1; rw [read1_2, ent1_db]

/-- THE RESULT: the array the second call leaves is the specification of the launch arguments. -/
theorem res_eq_spec (c : Dev nD) :
    resArr m c = mlpOut (aX m c) (aGw m c) (aGb m c) (aUw m c) (aUb m c) (aDw m c) (aDb m c) := by
  funext j
  obtain ⟨t, q, rfl⟩ : ∃ (t : Fin 256) (q : Fin 2880), j = ix2 t q := ⟨j 0, j 1, eq_ix2 j⟩
  rw [resArr_eq]
  unfold acc1
  refine (s2acc_apply _ _ _ 7 t q).trans ?_
  unfold mlpOut
  have hs : (∑ s ∈ Finset.range (7 + 1), ∑ k : Fin 360, hb1 (ent1 m) c s (ix2 k t) * dw1 (ent1 m) c s (ix2 k q))
      = ∑ i : Fin 2880, Cert.Mlp.hidden (aX m c) (aGw m c) (aGb m c) (aUw m c) (aUb m c) t i * (aDw m c) (ix2 i q) :=
    sum_of_slabs_360 (fun i => Cert.Mlp.hidden (aX m c) (aGw m c) (aGb m c) (aUw m c) (aUb m c) t i * (aDw m c) (ix2 i q)) _ fun s hs k => by
      rw [hb1_apply m c s hs k t, dw1_apply m c s hs k q]
  rw [hs, bias1_apply]

end Cert.KernelIdeal.MlpBridge

end
-- ==== Proof.RefValue.lean ====
/-
  The reference's result, read index by index: the three projections as sums over the contracted axis, the
  clipped-SiLU gate pointwise, the bias rows broadcast along the token axis. It is the specification `mlpOut`.
-/
import proofs.«114340_g74105365725337_cont_9to1c4b_446_3_alg».proof.Proof.Gen.ReferenceIdeal.Run
import proofs.«114340_g74105365725337_cont_9to1c4b_446_3_alg».proof.Proof.Gen.ReferenceIdeal.Read
import proofs.«114340_g74105365725337_cont_9to1c4b_446_3_alg».proof.Proof.GluSpec
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Gen Cert.ReferenceIdeal.Read Cert.Mlp

/-- The left operand's index of the gate projection's contraction: row `t`, contracted coordinate `k`. -/
theorem lidx_v0_ix2 (t : Fin 256) (i k : Fin 2880) : lidx_main_v0 (ix2 t i) k = ix2 t k :=
  funext fun a => by match a with | ⟨0, _⟩ => rfl | ⟨1, _⟩ => rfl

/-- The right operand's index of the gate projection's contraction: contracted coordinate `k`, column `i`. -/
theorem ridx_v0_ix2 (t : Fin 256) (i k : Fin 2880) : ridx_main_v0 (ix2 t i) k = ix2 k i :=
  funext fun a => by match a with | ⟨0, _⟩ => rfl | ⟨1, _⟩ => rfl

/-- The gate bias row is read at column `i`, whatever the token. -/
theorem idx_v1_ix2 (t : Fin 256) (i : Fin 2880) : idx_main_v1 (ix2 t i) = ix2 (0 : Fin 1) i :=
  funext fun a => by match a with | ⟨0, _⟩ => rfl | ⟨1, _⟩ => rfl

/-- The left operand's index of the up projection's contraction. -/
theorem lidx_v3_ix2 (t : Fin 256) (i k : Fin 2880) : lidx_main_v3 (ix2 t i) k = ix2 t k :=
  funext fun a => by match a with | ⟨0, _⟩ => rfl | ⟨1, _⟩ => rfl

/-- The right operand's index of the up projection's contraction. -/
theorem ridx_v3_ix2 (t : Fin 256) (i k : Fin 2880) : ridx_main_v3 (ix2 t i) k = ix2 k i :=
  funext fun a => by match a with | ⟨0, _⟩ => rfl | ⟨1, _⟩ => rfl

/-- The up bias row is read at column `i`, whatever the token. -/
theorem idx_v4_ix2 (t : Fin 256) (i : Fin 2880) : idx_main_v4 (ix2 t i) = ix2 (0 : Fin 1) i :=
  funext fun a => by match a with | ⟨0, _⟩ => rfl | ⟨1, _⟩ => rfl

/-- The left operand's index of the down projection's contraction: row `t`, hidden unit `i`. -/
theorem lidx_v20_ix2 (t : Fin 256) (q i : Fin 2880) : lidx_main_v20 (ix2 t q) i = ix2 t i :=
  funext fun a => by match a with | ⟨0, _⟩ => rfl | ⟨1, _⟩ => rfl

/-- The right operand's index of the down projection's contraction: hidden unit `i`, column `q`. -/
theorem ridx_v20_ix2 (t : Fin 256) (q i : Fin 2880) : ridx_main_v20 (ix2 t q) i = ix2 i q :=
  funext fun a => by match a with | ⟨0, _⟩ => rfl | ⟨1, _⟩ => rfl

/-- The down bias row is read at column `q`, whatever the token. -/
theorem idx_v21_ix2 (t : Fin 256) (q : Fin 2880) : idx_main_v21 (ix2 t q) = ix2 (0 : Fin 1) q :=
  funext fun a => by match a with | ⟨0, _⟩ => rfl | ⟨1, _⟩ => rfl

/-- The hidden activation the reference forms, at token `t` and hidden unit `i`, is the specification's. -/
theorem v19_eq_hidden (x0 : S256x2880.Idx → EReal) (x1 : S2880x2880.Idx → EReal) (x2 : S1x2880.Idx → EReal)
    (x3 : S2880x2880.Idx → EReal) (x4 : S1x2880.Idx → EReal) (t : Fin 256) (i : Fin 2880) :
    val_main_v19 (F := Ideal) x0 x1 x2 x3 x4 (ix2 t i) = hidden x0 x1 x2 x3 x4 t i := by
  rw [val_main_v19_apply, val_main_v16_apply, val_main_v18_apply, val_main_v15_apply, val_main_v13_apply,
    val_main_v11_apply, val_main_v10_apply, val_main_v8_apply, val_main_v6_apply, val_main_call0_v2_apply,
    val_main_v5_apply, val_main_v2_apply, val_main_v0_apply, val_main_v1_apply, val_main_v3_apply,
    val_main_v4_apply, val_main_v7_apply, val_main_v9_apply, val_main_v12_apply, val_main_v14_apply,
    val_main_v17_apply, val_main_call0_v1_apply, val_main_call0_v4_apply, val_main_call0_v0_apply,
    val_main_call0_v3_apply, val_main_cst_apply, val_main_cst_0_apply, val_main_cst_1_apply,
    val_main_cst_2_apply, val_main_cst_3_apply, val_main_cst_4_apply, val_main_cst_5_apply]
  simp only [lidx_v0_ix2, ridx_v0_ix2, idx_v1_ix2, lidx_v3_ix2, ridx_v3_ix2, idx_v4_ix2,
    Ideal.addf_def, Ideal.mulf_def, Ideal.minimumf_def, Ideal.maximumf_def, Ideal.hostDivf_def,
    Ideal.hostUnary_exp_def, Ideal.ofBits_def]
  rfl

/-- The reference's last stage, as a function of the seven arguments, is the specification, index by index. -/
theorem ref_eq_spec (x0 : S256x2880.Idx → EReal) (x1 : S2880x2880.Idx → EReal) (x2 : S1x2880.Idx → EReal)
    (x3 : S2880x2880.Idx → EReal) (x4 : S1x2880.Idx → EReal) (x5 : S2880x2880.Idx → EReal)
    (x6 : S1x2880.Idx → EReal) :
    val_main_v22 (F := Ideal) x0 x1 x2 x3 x4 x5 x6 = mlpOut x0 x1 x2 x3 x4 x5 x6 := by
  funext j
  obtain ⟨t, q, rfl⟩ : ∃ (t : Fin 256) (q : Fin 2880), j = ix2 t q := ⟨j 0, j 1, eq_ix2 j⟩
  rw [val_main_v22_apply, val_main_v20_apply, val_main_v21_apply]
  simp only [lidx_v20_ix2, ridx_v20_ix2, idx_v21_ix2, v19_eq_hidden, Ideal.addf_def]
  rfl

end Cert.ReferenceIdeal.RefValue

end
-- ==== Proof.lean ====
/-
  The two-stage gated MLP kernel against its plain reference, over the extended reals.

  The kernel transposes the activations and the two bias rows on the host, then runs two pipelined calls. The
  first walks the model axis in six slabs of 480 rows, accumulating the gate and up projections (transposed:
  hidden unit by token) in two scratch buffers, and at the last slab stores the hidden activation
  g' · (1 / (1 + exp(c · g'))) · (u' + 1), with g' the gate projection plus bias capped at 7 and u' the up
  projection plus bias clipped to [-7, 7]. The second walks the hidden axis in eight slabs of 360 rows,
  accumulating the down projection in its output block, the bias row added at the first slab.
  The reference computes the same three projections as whole matrix products. On the extended reals the two
  agree index by index: a sum over an axis is the sum of its slab sums, the products commute, and the order in
  which the bias joins the sum does not matter — commutativity and associativity of + and · only, so the
  finiteness of the inputs is never used. The literals (7, -7, 1 and the shared constant c) are the same words
  on both sides.

  Frames: every branch of either kernel body depends on the grid point alone, so both programs run from any
  memory; the frame modules are written once for any float instance and read at the word-level instance for the
  printed kernel and at the ideal instance for its idealization. The reference's frame is its run with the
  result dropped. The idealization rewrote no operation, so `preserves` has nothing to state.
-/
import proofs.«114340_g74105365725337_cont_9to1c4b_446_3_alg».proof.Defs
import proofs.«114340_g74105365725337_cont_9to1c4b_446_3_alg».proof.Proof.Gen.Kernel
import proofs.«114340_g74105365725337_cont_9to1c4b_446_3_alg».proof.Proof.Gen.KernelIdeal
import proofs.«114340_g74105365725337_cont_9to1c4b_446_3_alg».proof.Proof.Gen.ReferenceIdeal
import proofs.«114340_g74105365725337_cont_9to1c4b_446_3_alg».proof.Proof.Gen.Pre_finite_inputs
import proofs.«114340_g74105365725337_cont_9to1c4b_446_3_alg».proof.Proof.Gen.ReferenceIdeal.Run
import proofs.«114340_g74105365725337_cont_9to1c4b_446_3_alg».proof.Proof.Gen.ReferenceIdeal.Read
import proofs.«114340_g74105365725337_cont_9to1c4b_446_3_alg».proof.Proof.BitsLaunch
import proofs.«114340_g74105365725337_cont_9to1c4b_446_3_alg».proof.Proof.IdealLaunch
import proofs.«114340_g74105365725337_cont_9to1c4b_446_3_alg».proof.Proof.BridgeFinal
import proofs.«114340_g74105365725337_cont_9to1c4b_446_3_alg».proof.Proof.RefValue
import Idealize.ShloMosaic.Adequacy
import Idealize.ShloMosaic.Init

noncomputable section

namespace Cert.Proof

open Idealize.ShloMosaic Idealize.SL.Sem

/-- The printed kernel runs from any memory and leaves its arguments as launched. -/
theorem frame_kernel : Cert.frame_Kernel := fun m ρ _ => Cert.Kernel.Mlp.frame (F := Bits) m ρ

/-- So does its idealization. -/
theorem frame_kernelIdeal : Cert.frame_KernelIdeal := fun m ρ _ => Cert.KernelIdeal.Mlp.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal instance the kernel's result array ends at the specification of its arguments (the named run and
    the bridge), the reference's at the same specification of arguments that agree (its run read stage by stage). -/
theorem algebraic : Cert.algebraic_KernelIdeal_ReferenceIdeal := by
  intro m ρ m' ρ' _ hagree
  refine ⟨fun c => Cert.KernelIdeal.Mlp.resArr (F := Ideal) m c, Cert.KernelIdeal.Mlp.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  exact ((Cert.ReferenceIdeal.Read.val_main_v22_eq _ _ _ _ _ _ _).trans
    (Cert.ReferenceIdeal.RefValue.ref_eq_spec _ _ _ _ _ _ _)).trans
    (Cert.KernelIdeal.MlpBridge.res_eq_spec m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
